-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S20000x128 .f32) (main_arg1 : IVec S2x640000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S640000x128 : Shape := ⟨2, ![640000, 128]⟩
abbrev S5000x128 : Shape := ⟨2, ![5000, 128]⟩
abbrev S5000x1 : Shape := ⟨2, ![5000, 1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 53
  | .vmem => 18
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S20000, .f32⟩
  | .hbm, ⟨16, _⟩ => ⟨S640000x1, .i32⟩
  | .hbm, ⟨17, _⟩ => ⟨S20000, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000, .f32⟩
  | .hbm, ⟨27, _⟩ => ⟨S_, .f32⟩
  | .hbm, ⟨28, _⟩ => ⟨S640000, .f32⟩
  | .hbm, ⟨29, _⟩ => ⟨S640000, .f32⟩
  | .hbm, ⟨30, _⟩ => ⟨S_, .f32⟩
  | .hbm, ⟨31, _⟩ => ⟨S640000, .f32⟩
  | .hbm, ⟨32, _⟩ => ⟨S640000, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .f32⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .bf16⟩
  | .hbm, ⟨46, _⟩ => ⟨S640000x1, .f32⟩
  | .hbm, ⟨47, _⟩ => ⟨S640000x128, .f32⟩
  | .hbm, ⟨48, _⟩ => ⟨S_, .f32⟩
  | .hbm, ⟨49, _⟩ => ⟨S20000x128, .f32⟩
  | .hbm, ⟨50, _⟩ => ⟨S640000x1, .i32⟩
  | .hbm, ⟨51, _⟩ => ⟨S20000x128, .f32⟩
  | .hbm, ⟨52, _⟩ => ⟨S20000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S5000x1, .f32⟩
  | .local _ .vmem, ⟨7, _⟩ => ⟨S5000x1, .f32⟩
  | .local _ .vmem, ⟨8, _⟩ => ⟨S5000x128, .f32⟩
  | .local _ .vmem, ⟨9, _⟩ => ⟨S5000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128, .f32⟩
  | .local _ .vmem, ⟨15, _⟩ => ⟨S128, .f32⟩
  | .local _ .vmem, ⟨16, _⟩ => ⟨S4000x128, .f32⟩
  | .local _ .vmem, ⟨17, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  transposes_S128x128_S128x128_1_0 : S128x128.Transposes [1, 0] S128x128
  bitsLt_bf16_f32 : FTy.bits .bf16 < FTy.bits .f32
  shapeCasts_S640000_S640000x1 : S640000.ShapeCasts S640000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S128_S1x128 : S128.ShapeCasts S1x128
  broadcasts_S1x128_S5000x128 : S1x128.Broadcasts S5000x128
  broadcasts_S5000x1_S5000x128 : S5000x1.Broadcasts S5000x128
  bcast_S_S20000x128 : S_.BroadcastsInDim S20000x128 (![] : Fin 0 → Fin S20000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  broadcasts_S1x128_S4000x128 : S1x128.Broadcasts S4000x128
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  gather_S20000x128_S640000x1_S640000x128_1_0_n_n_0_1_1128_wf : GatherDims.WF S20000x128 S640000x1 S640000x128 [1] [0] [] [0] [] 1 ![1, 128]
  dot_S5000x128_S128x128_S5000x128_1_0_0_1_n_n_wf : DotDims.WF S5000x128 S128x128 S5000x128 [1] [0] [0] [1] [] []
  scatter_S20000x128_S640000x1_S640000x128_1_0_0_1_wf : ScatterDims.WF S20000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S640000x1.size a
  hwx0_5 : ∀ i : grid0.Coords, EltTy.bits .f32 = 32 ∨ (Rect.block (s := S640000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S640000x128.size a
  hwx0_6 : ∀ i : grid0.Coords, EltTy.bits .f32 = 32 ∨ (Rect.block (s := S640000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S20000x128.size a
  hwx1_4 : ∀ i : grid1.Coords, EltTy.bits .f32 = 32 ∨ (Rect.block (s := S20000x128) S4000x128.size (cc1_transform_4 i) (hinb1_4 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S640000x128 : Shape := ⟨2, ![640000, 128]⟩
abbrev S1x128 : Shape := ⟨2, ![1, 128]⟩
abbrev S20000x1 : Shape := ⟨2, ![20000, 1]⟩

abbrev nBuf : Space → Nat
  | .hbm => 107
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S20000, .f32⟩
  | .hbm, ⟨16, _⟩ => ⟨S640000x1, .i32⟩
  | .hbm, ⟨17, _⟩ => ⟨S20000, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000, .f32⟩
  | .hbm, ⟨27, _⟩ => ⟨S_, .f32⟩
  | .hbm, ⟨28, _⟩ => ⟨S640000, .f32⟩
  | .hbm, ⟨29, _⟩ => ⟨S640000, .f32⟩
  | .hbm, ⟨30, _⟩ => ⟨S_, .f32⟩
  | .hbm, ⟨31, _⟩ => ⟨S640000, .f32⟩
  | .hbm, ⟨32, _⟩ => ⟨S640000, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .f32⟩
  | .hbm, ⟨42, _⟩ => ⟨S128x128, .f32⟩
  | .hbm, ⟨43, _⟩ => ⟨S640000x128, .f32⟩
  | .hbm, ⟨44, _⟩ => ⟨S1x128, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S640000x128, .f32⟩
  | .hbm, ⟨49, _⟩ => ⟨S640000x128, .f32⟩
  | .hbm, ⟨50, _⟩ => ⟨S128x128, .f32⟩
  | .hbm, ⟨51, _⟩ => ⟨S640000x128, .f32⟩
  | .hbm, ⟨52, _⟩ => ⟨S1x128, .f32⟩
  | .hbm, ⟨53, _⟩ => ⟨S640000x128, .f32⟩
  | .hbm, ⟨54, _⟩ => ⟨S640000x128, .f32⟩
  | .hbm, ⟨55, _⟩ => ⟨S640000x1, .f32⟩
  | .hbm, ⟨56, _⟩ => ⟨S640000x128, .f32⟩
  | .hbm, ⟨57, _⟩ => ⟨S640000x128, .f32⟩
  | .hbm, ⟨58, _⟩ => ⟨S_, .f32⟩
  | .hbm, ⟨59, _⟩ => ⟨S20000x128, .f32⟩
  | .hbm, ⟨60, _⟩ => ⟨S640000x1, .i32⟩
  | .hbm, ⟨61, _⟩ => ⟨S20000x128, .f32⟩
  | .hbm, ⟨62, _⟩ => ⟨S20000x128, .f32⟩
  | .hbm, ⟨63, _⟩ => ⟨S_, .f32⟩
  | .hbm, ⟨64, _⟩ => ⟨S20000, .f32⟩
  | .hbm, ⟨65, _⟩ => ⟨S20000x1, .f32⟩
  | .hbm, ⟨66, _⟩ => ⟨S_, .f32⟩
  | .hbm, ⟨67, _⟩ => ⟨S20000x1, .f32⟩
  | .hbm, ⟨68, _⟩ => ⟨S20000x1, .f32⟩
  | .hbm, ⟨69, _⟩ => ⟨S_, .i32⟩
  | .hbm, ⟨70, _⟩ => ⟨S_, .f32⟩
  | .hbm, ⟨71, _⟩ => ⟨S20000, .f32⟩
  | .hbm, ⟨72, _⟩ => ⟨S20000x1, .f32⟩
  | .hbm, ⟨73, _⟩ => ⟨S_, .f32⟩
  | .hbm, ⟨74, _⟩ => ⟨S20000x1, .f32⟩
  | .hbm, ⟨75, _⟩ => ⟨S20000x1, .f32⟩
  | .hbm, ⟨76, _⟩ => ⟨S20000x128, .f32⟩
  | .hbm, ⟨77, _⟩ => ⟨S20000x128, .f32⟩
  | .hbm, ⟨78, _⟩ => ⟨S20000x128, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S20000, .f32⟩
  | .hbm, ⟨84, _⟩ => ⟨S20000x1, .f32⟩
  | .hbm, ⟨85, _⟩ => ⟨S20000x1, .f32⟩
  | .hbm, ⟨86, _⟩ => ⟨S20000x1, .f32⟩
  | .hbm, ⟨87, _⟩ => ⟨S_, .f32⟩
  | .hbm, ⟨88, _⟩ => ⟨S_, .i1⟩
  | .hbm, ⟨89, _⟩ => ⟨S_, .f32⟩
  | .hbm, ⟨90, _⟩ => ⟨S_, .f32⟩
  | .hbm, ⟨91, _⟩ => ⟨S20000x1, .f32⟩
  | .hbm, ⟨92, _⟩ => ⟨S20000x1, .f32⟩
  | .hbm, ⟨93, _⟩ => ⟨S20000x128, .f32⟩
  | .hbm, ⟨94, _⟩ => ⟨S20000x128, .f32⟩
  | .hbm, ⟨95, _⟩ => ⟨S_, .f32⟩
  | .hbm, ⟨96, _⟩ => ⟨S20000x1, .f32⟩
  | .hbm, ⟨97, _⟩ => ⟨S20000x1, .f32⟩
  | .hbm, ⟨98, _⟩ => ⟨S20000x1, .f32⟩
  | .hbm, ⟨99, _⟩ => ⟨S20000x128, .f32⟩
  | .hbm, ⟨100, _⟩ => ⟨S20000x128, .f32⟩
  | .hbm, ⟨101, _⟩ => ⟨S1x128, .f32⟩
  | .hbm, ⟨102, _⟩ => ⟨S20000x128, .f32⟩
  | .hbm, ⟨103, _⟩ => ⟨S20000x128, .f32⟩
  | .hbm, ⟨104, _⟩ => ⟨S1x128, .f32⟩
  | .hbm, ⟨105, _⟩ => ⟨S20000x128, .f32⟩
  | .hbm, ⟨106, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_cst_3 : Ref sig .tc := ⟨.hbm, 87, rfl⟩
abbrev main_call1_v13 : Ref sig .tc := ⟨.hbm, 88, rfl⟩
abbrev main_call1_cst_4 : Ref sig .tc := ⟨.hbm, 89, rfl⟩
abbrev main_call1_call0_v0 : Ref sig .tc := ⟨.hbm, 90, rfl⟩
abbrev main_call1_call0_v1 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_10 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  transposes_S128x128_S128x128_1_0 : S128x128.Transposes [1, 0] S128x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  reducesTo_S20000x128_S20000_d1 : S20000x128.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  gather_S20000x128_S640000x1_S640000x128_1_0_n_n_0_1_1128_wf : GatherDims.WF S20000x128 S640000x1 S640000x128 [1] [0] [] [0] [] 1 ![1, 128]
  dot_S640000x128_S128x128_S640000x128_1_0_0_1_n_n_wf : DotDims.WF S640000x128 S128x128 S640000x128 [1] [0] [0] [1] [] []
  scatter_S20000x128_S640000x1_S640000x128_1_0_0_1_wf : ScatterDims.WF S20000x128 S640000x1 S640000x128 [1] [0] [0] 1

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.KernelHost.lean ====
/-
  What the host operations around the two regions hand to them, as terms of the launch arguments.
  Before the first region: the edge list's two endpoint rows, negative indices wrapped by the node count, the out-degree by
  a scatter-add of ones, the edge scale 1 / (degree + 1e-12), the gathered source rows, the two weight matrices transposed
  (and narrowed, which is the identity on the extended reals), and the scale as a column. Between the regions: the first
  region's messages scatter-added at row 0's nodes. No operation and no region writes an argument, and the edge scale is
  written once, before the first region, so at the end it still holds that term.
-/
import proofs.«171261_j38878043964036_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem

namespace Cert.KernelIdeal.HostVals

open Cert.KernelIdeal Cert.KernelIdeal.Gen

abbrev Ints (s : Shape) : Type := IVec s 32
abbrev Reals (s : Shape) : Type := FVec Ideal s .f32

/-- Row 0 of the edge list, flattened. -/
def endpoint0 (ei : Ints S2x640000) : Ints S640000 :=
  fun i => shapeCast S640000 (extractStridedSlice S1x640000 ![0, 0] ei slices_S2x640000_S1x640000_0_0) shapeCasts_S1x640000_S640000 i
/-- Row 1 of the edge list, flattened. -/
def endpoint1 (ei : Ints S2x640000) : Ints S640000 :=
  fun i => shapeCast S640000 (extractStridedSlice S1x640000 ![1, 0] ei slices_S2x640000_S1x640000_1_0) shapeCasts_S1x640000_S640000 i
/-- A negative node index wrapped by the node count. -/
def wrapped (i : Ints S640000) : Ints S640000 :=
  select (cmpi .slt i (broadcastInDim S640000 ![] bcast_S_S640000 (constantI S_ 32 0#32)))
    (addi i (broadcastInDim S640000 ![] bcast_S_S640000 (constantI S_ 32 20000#32))) i
/-- An index vector as a column of start indices. -/
def asColumn (i : Ints S640000) : Ints S640000x1 := broadcastInDim S640000x1 ![0] bcast_S640000_S640000x1_0 i
/-- Out-degrees: ones scatter-added at row 0's nodes. -/
def degree (ei : Ints S2x640000) : Reals S20000 :=
  Host.scatterAdd scatter_S20000_S640000x1_S640000_n_0_0_1
    (broadcastInDim S20000 ![] bcast_S_S20000 (constant S_ .f32 0x00000000#32))
    (asColumn (endpoint0 ei))
    (broadcastInDim S640000 ![] bcast_S_S640000 (constant S_ .f32 0x3F800000#32))
/-- The edge scale: one over (the degree of the edge's row-0 node plus 1e-12). -/
def alpha (ei : Ints S2x640000) : Reals S640000 :=
  Host.divf (broadcastInDim S640000 ![] bcast_S_S640000 (constant S_ .f32 0x3F800000#32))
    (addf (Host.gather gather_S20000_S640000x1_S640000_n_0_n_n_0_1_1 (degree ei) (asColumn (wrapped (endpoint0 ei))))
      (broadcastInDim S640000 ![] bcast_S_S640000 (constant S_ .f32 0x2B8CBCCC#32)))
/-- The feature rows of the edges' row-1 nodes. -/
def gathered (z : Reals S20000x128) (ei : Ints S2x640000) : Reals S640000x128 :=
  Host.gather gather_S20000x128_S640000x1_S640000x128_1_0_n_n_0_1_1128 z (asColumn (wrapped (endpoint1 ei)))
/-- The weights transposed. -/
def transposed (W : Reals S128x128) : Reals S128x128 := transpose S128x128 [1, 0] W transposes_S128x128_S128x128_1_0
/-- The weights transposed, in the narrow format the matrix unit reads. -/
def narrowed (W : Reals S128x128) : FVec Ideal S128x128 .bf16 := truncf .bf16 (transposed W) bitsLt_bf16_f32
/-- The edge scale as a column. -/
def scaleColumn (ei : Ints S2x640000) : Reals S640000x1 :=
  fun i => shapeCast S640000x1 (alpha ei) shapeCasts_S640000_S640000x1 i
/-- Messages scatter-added at row 0's nodes. -/
def aggregatedOf (ei : Ints S2x640000) (msg : Reals S640000x128) : Reals S20000x128 :=
  Host.scatterAdd scatter_S20000x128_S640000x1_S640000x128_1_0_0_1
    (broadcastInDim S20000x128 ![] bcast_S_S20000x128 (constant S_ .f32 0x00000000#32))
    (asColumn (endpoint0 ei)) msg

variable (m : (ℓ : Loc nD τ sig) → Buf (Elt Ideal) ℓ) (ρ : Dev nD → PrngReg)

/-! ## What the first region finds -/

set_option maxHeartbeats 4000000 in
theorem entry0_gathered (c : Dev nD) :
    (V1 (F := Ideal) m ρ c main_v25 : Reals S640000x128)
      = gathered (m ((c : Thread nD τ).loc main_arg0)) (m ((c : Thread nD τ).loc main_arg1)) := by
  dsimp only [V1, W1, hostOps0]
  after_results_simp
  rfl

set_option maxHeartbeats 4000000 in
theorem entry0_w1 (c : Dev nD) :
    (V1 (F := Ideal) m ρ c main_v27 : FVec Ideal S128x128 .bf16) = narrowed (m ((c : Thread nD τ).loc main_arg2)) := by
  dsimp only [V1, W1, hostOps0]
  after_results_simp
  rfl

set_option maxHeartbeats 4000000 in
theorem entry0_w2 (c : Dev nD) :
    (V1 (F := Ideal) m ρ c main_v29 : FVec Ideal S128x128 .bf16) = narrowed (m ((c : Thread nD τ).loc main_arg4)) := by
  dsimp only [V1, W1, hostOps0]
  after_results_simp
  rfl

set_option maxHeartbeats 4000000 in
theorem entry0_b1 (c : Dev nD) :
    (V1 (F := Ideal) m ρ c main_arg3 : Reals S128) = m ((c : Thread nD τ).loc main_arg3) := by
  dsimp only [V1, W1, hostOps0]
  after_results_simp

set_option maxHeartbeats 4000000 in
theorem entry0_b2 (c : Dev nD) :
    (V1 (F := Ideal) m ρ c main_arg5 : Reals S128) = m ((c : Thread nD τ).loc main_arg5) := by
  dsimp only [V1, W1, hostOps0]
  after_results_simp

set_option maxHeartbeats 4000000 in
theorem entry0_scale (c : Dev nD) :
    (V1 (F := Ideal) m ρ c main_v30 : Reals S640000x1) = scaleColumn (m ((c : Thread nD τ).loc main_arg1)) := by
  dsimp only [V1, W1, hostOps0]
  after_results_simp
  rfl

/-! ## What the second region finds -/

set_option maxHeartbeats 4000000 in
/-- Row 0 of the edge list is still in its buffer after the first region: the region writes only its own arrays. -/
theorem mid_endpoint0 (c : Dev nD) :
    (W2 (F := Ideal) m ρ c (Proc.devRef .tc main_v1) : Ints S640000) = endpoint0 (m ((c : Thread nD τ).loc main_arg1)) := by
  refine (W2_of_ne m ρ c main_v1 (by decide)).trans ?_
  dsimp only [W1, hostOps0]
  after_results_simp
  rfl

set_option maxHeartbeats 4000000 in
/-- The aggregate the second region reads: the first region's output array scatter-added at row 0's nodes. -/
theorem entry1_agg (c : Dev nD) :
    (V3 (F := Ideal) m ρ c main_v34 : Reals S20000x128)
      = aggregatedOf (m ((c : Thread nD τ).loc main_arg1)) ((dat0 (F := Ideal) (V1 m ρ) c).arrAt 6 cfg0.N) := by
  have h31 : W2 (F := Ideal) m ρ c (Proc.devRef .tc main_v31) = (dat0 (F := Ideal) (V1 m ρ) c).arrAt 6 cfg0.N := W2_arr m ρ c 6
  dsimp only [V3, W3, hostOps1]
  after_results_simp
  unfold aggregatedOf asColumn
  rw [mid_endpoint0 m ρ c, h31]

set_option maxHeartbeats 4000000 in
theorem entry1_z (c : Dev nD) :
    (V3 (F := Ideal) m ρ c main_arg0 : Reals S20000x128) = m ((c : Thread nD τ).loc main_arg0) := by
  dsimp only [V3, W3, hostOps1]
  after_results_simp
  refine (W2_of_ne m ρ c main_arg0 (by decide)).trans ?_
  dsimp only [W1, hostOps0]
  after_results_simp

set_option maxHeartbeats 4000000 in
theorem entry1_gain (c : Dev nD) :
    (V3 (F := Ideal) m ρ c main_arg6 : Reals S128) = m ((c : Thread nD τ).loc main_arg6) := by
  dsimp only [V3, W3, hostOps1]
  after_results_simp
  refine (W2_of_ne m ρ c main_arg6 (by decide)).trans ?_
  dsimp only [W1, hostOps0]
  after_results_simp

set_option maxHeartbeats 4000000 in
theorem entry1_offset (c : Dev nD) :
    (V3 (F := Ideal) m ρ c main_arg7 : Reals S128) = m ((c : Thread nD τ).loc main_arg7) := by
  dsimp only [V3, W3, hostOps1]
  after_results_simp
  refine (W2_of_ne m ρ c main_arg7 (by decide)).trans ?_
  dsimp only [W1, hostOps0]
  after_results_simp

/-! ## The two results at the end -/

/-- The first result's buffer is the second region's output array. -/
theorem final_out (c : Dev nD) :
    W4 (F := Ideal) m ρ c (Proc.devRef .tc main_v35) = (dat1 (F := Ideal) (V3 m ρ) c).arrAt 4 cfg1.N := W4_arr m ρ c 4

set_option maxHeartbeats 4000000 in
/-- The second result is the edge scale: written once before the first region and by nothing after. -/
theorem final_scale (c : Dev nD) :
    (W4 (F := Ideal) m ρ c (Proc.devRef .tc main_v18) : Reals S640000) = alpha (m ((c : Thread nD τ).loc main_arg1)) := by
  refine (W4_of_ne m ρ c main_v18 (by decide)).trans ?_
  dsimp only [W3, hostOps1]
  after_results_simp
  refine (W2_of_ne m ρ c main_v18 (by decide)).trans ?_
  dsimp only [W1, hostOps0]
  after_results_simp
  rfl

end Cert.KernelIdeal.HostVals

end
-- ==== Proof.Spec.lean ====
/-
  The mathematics both programs compute, stated once over plain index types, and the one law that joins them.

  A message row: for edge e, with zj the gathered source features, w1t and w2t the two weight matrices already
  transposed, b1 and b2 the biases and a the edge's scale,
      hidden e k  = max (∑ i, zj[e,i] · w1t[i,k] + b1[k]) 0
      message e q = (∑ k, hidden e k · w2t[k,q] + b2[q]) · a[e].
  A normalised row: for a row x of 128 entries, mean x = (∑ x) / 128, the centred row x − mean x, the variance
  (∑ (x − mean x)²) / 128, and then EITHER the centred entry times the reciprocal square root of (variance + ε)
  OR the centred entry divided by the square root of (variance + ε), times the gain, plus the offset.
  The two agree on every extended real: variance + ε is positive (a sum of squares is nonnegative, 128 and ε are
  positive reals), and for a positive v — a real or +∞ — dividing by √v is multiplying by (√v)⁻¹, which at +∞ is 0
  on both sides. No entry needs to be finite for this.
-/
import Idealize.ShloMosaic.PureOps.Ideal
import Idealize.ShloMosaic.Lib.ValueIdx

noncomputable section

open scoped BigOperators
open Idealize.ShloMosaic Idealize.ShloMosaic.ValueIdx

namespace Cert.Gnn

/-! ## The literals -/

/-- The word of `128.0`. -/
abbrev c128 : EReal := Ideal.ofBits .f32 0x43000000#32
/-- The word of the variance's ε. -/
abbrev ceps : EReal := Ideal.ofBits .f32 0x3727C5AC#32

theorem c128_eq : c128 = ((128 : ℝ) : EReal) := by
  simp [c128, Ideal.ofBits, Ideal.ieee, -EReal.coe_mul]; norm_num

theorem ceps_pos : (0 : EReal) < ceps := by
  have h : ceps = ((10995116 * (2 : ℝ) ^ (-40 : Int) : ℝ) : EReal) := by
    simp [ceps, Ideal.ofBits, Ideal.ieee, -EReal.coe_mul]
  rw [h]
  exact_mod_cast (by positivity : (0 : ℝ) < 10995116 * (2 : ℝ) ^ (-40 : Int))

/-! ## The message rows -/

/-- The hidden layer of edge `e` at unit `k`. -/
def hidden (zj : (⟨2, ![640000, 128]⟩ : Shape).Idx → EReal) (w1t : (⟨2, ![128, 128]⟩ : Shape).Idx → EReal)
    (b1 : (⟨1, ![128]⟩ : Shape).Idx → EReal) (e : Fin 640000) (k : Fin 128) : EReal :=
  max ((∑ i : Fin 128, zj (ix2 e i) * w1t (ix2 i k)) + b1 (ix1 k)) 0

/-- Every edge's scaled message, as one array. -/
def messages (zj : (⟨2, ![640000, 128]⟩ : Shape).Idx → EReal) (w1t : (⟨2, ![128, 128]⟩ : Shape).Idx → EReal)
    (b1 : (⟨1, ![128]⟩ : Shape).Idx → EReal) (w2t : (⟨2, ![128, 128]⟩ : Shape).Idx → EReal)
    (b2 : (⟨1, ![128]⟩ : Shape).Idx → EReal) (a : (⟨2, ![640000, 1]⟩ : Shape).Idx → EReal) :
    (⟨2, ![640000, 128]⟩ : Shape).Idx → EReal :=
  fun j => ((∑ k : Fin 128, hidden zj w1t b1 (j 0) k * w2t (ix2 k (j 1))) + b2 (ix1 (j 1))) * a (ix2 (j 0) (0 : Fin 1))

/-! ## A normalised row -/

def mean (x : Fin 128 → EReal) : EReal := Ideal.div (∑ k : Fin 128, x k) c128
def centred (x : Fin 128 → EReal) (k : Fin 128) : EReal := x k - mean x
def variance (x : Fin 128 → EReal) : EReal := Ideal.div (∑ k : Fin 128, centred x k * centred x k) c128

/-- With the reciprocal square root, as a product. -/
def rowNormMul (x : Fin 128 → EReal) (g b : EReal) (q : Fin 128) : EReal :=
  centred x q * Ideal.rsqrt (variance x + ceps) * g + b
/-- With the square root, as a quotient. -/
def rowNormDiv (x : Fin 128 → EReal) (g b : EReal) (q : Fin 128) : EReal :=
  Ideal.div (centred x q) (Ideal.sqrt (variance x + ceps)) * g + b

/-- A square is nonnegative on the extended reals (both infinities square to +∞). -/
theorem mul_self_nonneg (a : EReal) : 0 ≤ a * a := by
  induction a using EReal.rec with
  | bot => rw [EReal.bot_mul_bot]; exact le_top
  | coe r => rw [← EReal.coe_mul]; exact_mod_cast _root_.mul_self_nonneg r
  | top => rw [EReal.top_mul_top]; exact le_top

theorem variance_nonneg (x : Fin 128 → EReal) : 0 ≤ variance x := by
  unfold variance
  rw [c128_eq, Ideal.div_coe (by norm_num : (128 : ℝ) ≠ 0)]
  refine EReal.mul_nonneg (Finset.sum_nonneg fun k _ => mul_self_nonneg _) ?_
  exact_mod_cast (by norm_num : (0 : ℝ) ≤ 1 / 128)

theorem variance_add_eps_pos (x : Fin 128 → EReal) : 0 < variance x + ceps :=
  calc (0 : EReal) < ceps := ceps_pos
    _ = 0 + ceps := (zero_add _).symm
    _ ≤ variance x + ceps := add_le_add_left (variance_nonneg x) _

/-- Dividing by the square root of a positive extended real is multiplying by its reciprocal square root. -/
theorem div_sqrt_eq_mul_rsqrt (a v : EReal) (hv : 0 < v) : Ideal.div a (Ideal.sqrt v) = a * Ideal.rsqrt v := by
  induction v using EReal.rec with
  | bot => exact absurd hv (not_lt_bot)
  | coe r =>
    have hr : 0 < r := by exact_mod_cast hv
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_div]
  | top =>
    rw [Ideal.sqrt_top, Ideal.rsqrt_top, Ideal.div, if_neg (by simp), EReal.inv_top]

/-- THE LAW: the two forms of a normalised row are one function. -/
theorem rowNormDiv_eq_rowNormMul (x : Fin 128 → EReal) (g b : EReal) (q : Fin 128) :
    rowNormDiv x g b q = rowNormMul x g b q := by
  unfold rowNormDiv rowNormMul
  rw [div_sqrt_eq_mul_rsqrt _ _ (variance_add_eps_pos x)]

/-! ## The normalised arrays -/

/-- Each row of `z + agg` normalised, product form. -/
def normMul (z agg : (⟨2, ![20000, 128]⟩ : Shape).Idx → EReal) (g b : (⟨1, ![128]⟩ : Shape).Idx → EReal) :
    (⟨2, ![20000, 128]⟩ : Shape).Idx → EReal :=
  fun j => rowNormMul (fun k : Fin 128 => z (ix2 (j 0) k) + agg (ix2 (j 0) k)) (g (ix1 (j 1))) (b (ix1 (j 1))) (j 1)

/-- Each row of `x` normalised, quotient form. -/
def normDiv (x : (⟨2, ![20000, 128]⟩ : Shape).Idx → EReal) (g b : (⟨1, ![128]⟩ : Shape).Idx → EReal) :
    (⟨2, ![20000, 128]⟩ : Shape).Idx → EReal :=
  fun j => rowNormDiv (fun k : Fin 128 => x (ix2 (j 0) k)) (g (ix1 (j 1))) (b (ix1 (j 1))) (j 1)

theorem normDiv_add (z agg : (⟨2, ![20000, 128]⟩ : Shape).Idx → EReal) (g b : (⟨1, ![128]⟩ : Shape).Idx → EReal) :
    normDiv (fun i => z i + agg i) g b = normMul z agg g b := by
  funext j
  exact rowNormDiv_eq_rowNormMul _ _ _ _

end Cert.Gnn

end
-- ==== Proof.KernelMlp.lean ====
/-
  The first region's output array as one function of the arrays the region finds.
  Point t of the 128 grid points loads rows 5000·t … 5000·t + 4999 of the gathered features and of the edge-scale
  column, and the two weight matrices and bias rows whole; it stores, for each of its rows e and each unit q,
  (∑ k, max (∑ i, zj[e,i]·w1t[i,k] + b1[k]) 0 · w2t[k,q] + b2[q]) · a[e]: a format change is the identity on the extended
  reals, and a matrix product into a zero accumulator is the plain sum over the contracted axis. The 128 blocks tile the
  640000 rows, so the array the region leaves is that function at every index.
-/
import proofs.«171261_j38878043964036_1_alg».proof.Proof.Gen.KernelIdeal.Frame
import proofs.«171261_j38878043964036_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Mlp

open Cert.KernelIdeal Cert.KernelIdeal.Gen

variable (V : (c : Dev nD) → (b : Ref sig .tc) → Buf (Elt Ideal) ((c : Thread nD τ).loc b))

/-! ## The matrix product at an index -/

/-- On the left operand's row axis the index is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- On the left operand's column axis it is the contracted position. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the right operand's row axis it is the contracted position. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the right operand's column axis it is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] by [128,128] product into the zero accumulator, at row `p` and column `q`: the plain sum over the
    contracted axis. -/
theorem matmul_at (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-! ## The layout operations at an index -/

/-- A bias row, cast to one row and broadcast down 5000 rows, reads its entry at the column. -/
theorem bias_at (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- A column broadcast along 128 lanes reads its row's entry. -/
theorem column_at (a : FVec Ideal S5000x1 .f32) (p : Fin 5000) (q : Fin 128) :
    broadcastTo S5000x128 a broadcasts_S5000x1_S5000x128 (ix2 p q) = a (ix2 p (0 : Fin 1)) := by
  refine broadcastTo_apply a broadcasts_S5000x1_S5000x128 (ix2 p q) (ix2 p (0 : Fin 1)) fun ax => ?_
  match ax with
  | ⟨0, _⟩ => rfl
  | ⟨1, _⟩ => rfl

/-! ## The body's stored value at an index -/

/-- What the body stores at row `p`, column `q` of its block, from the blocks it loaded: the two-layer row formula
    times the row's scale. The format changes are the identity and the zero word is the real 0. -/
theorem pay_at (x0 : Vec Ideal S5000x128 .f32) (x1 : Vec Ideal S128x128 .bf16) (x2 : Vec Ideal S128 .f32)
    (x3 : Vec Ideal S128x128 .bf16) (x4 : Vec Ideal S128 .f32) (x5 : Vec Ideal S5000x1 .f32) (p : Fin 5000) (q : Fin 128) :
    k0_pay1 (F := Ideal) x0 x1 x2 x3 x4 x5 (ix2 p q)
      = ((∑ k : Fin 128, max ((∑ i : Fin 128, x0 (ix2 p i) * x1 (ix2 i k)) + x2 (ix1 k)) 0 * x3 (ix2 k q)) + x4 (ix1 q))
          * x5 (ix2 p (0 : Fin 1)) := by
  unfold k0_pay1
  rw [shapeCast_self x0, shapeCast_self x1, shapeCast_self x3, shapeCast_self x5]
  rw [mulf_apply, addf_apply, matmul_at, bias_at, column_at]
  refine congrArg (· * x5 (ix2 p (0 : Fin 1))) (congrArg (· + x4 (ix1 q)) (Finset.sum_congr rfl fun k _ => ?_))
  rw [truncf_apply, maximumf_apply, addf_apply, matmul_at, bias_at, broadcast_apply]
  rw [show (FloatOps.ofBits (F := Ideal) .f32 0x00000000#32) = (0 : EReal) from Ideal.ofBits_zero_f32]
  rfl

/-! ## Each loaded block, read off its array -/

theorem hz2 : (![0, 0] : Fin 2 → Nat) = fun _ => 0 := funext fun a => by fin_cases a <;> rfl
theorem hz1 : (![0] : Fin 1 → Nat) = fun _ => 0 := funext fun a => by fin_cases a <;> rfl

/-- The block index maps over the grid: the row-blocked windows sit at block row `t`, the whole windows at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of point `t`'s feature block is row `5000·t + p` of the gathered features. -/
theorem zj_block (c : Dev nD) (t : Fin cfg0.N) (p : Fin 5000) (i : Fin 128) (e : Fin 640000)
    (he : e.val = t.val * 5000 + p.val) :
    (iblk0 V c 0 t : Vec Ideal S5000x128 .f32) (ix2 p i) = (V c main_v25 : S640000x128.Idx → EReal) (ix2 e i) := by
  obtain ⟨h0, h1, -⟩ := index_facts t
  unfold iblk0
  rw [View.read_apply]
  show V c main_v25 _ = V c main_v25 _
  congr 1
  funext a
  apply Fin.ext
  match a with
  | ⟨0, _⟩ => show win0_0.index t (0 : Fin 2) * 5000 + 1 * p.val = e.val; rw [h0, he]; omega
  | ⟨1, _⟩ => show win0_0.index t (1 : Fin 2) * 128 + 1 * i.val = i.val; rw [h1]; omega

/-- The first weight matrix is loaded whole. -/
theorem w1_block (c : Dev nD) (t : Fin cfg0.N) (i k : Fin 128) :
    (iblk0 V c 1 t : Vec Ideal S128x128 .bf16) (ix2 i k) = (V c main_v27 : S128x128.Idx → EReal) (ix2 i k) := by
  obtain ⟨-, -, h0, h1, -⟩ := index_facts t
  unfold iblk0
  rw [View.read_apply]
  show V c main_v27 _ = V c main_v27 _
  congr 1
  funext a
  apply Fin.ext
  match a with
  | ⟨0, _⟩ => show win0_1.index t (0 : Fin 2) * 128 + 1 * i.val = i.val; rw [h0]; omega
  | ⟨1, _⟩ => show win0_1.index t (1 : Fin 2) * 128 + 1 * k.val = k.val; rw [h1]; omega

/-- The first bias row is loaded whole. -/
theorem b1_block (c : Dev nD) (t : Fin cfg0.N) (k : Fin 128) :
    (iblk0 V c 2 t : Vec Ideal S128 .f32) (ix1 k) = (V c main_arg3 : S128.Idx → EReal) (ix1 k) := by
  obtain ⟨-, -, -, -, h0, -⟩ := index_facts t
  unfold iblk0
  rw [View.read_apply]
  show V c main_arg3 _ = V c main_arg3 _
  congr 1
  funext a
  apply Fin.ext
  match a with
  | ⟨0, _⟩ => show win0_2.index t (0 : Fin 1) * 128 + 1 * k.val = k.val; rw [h0]; omega

/-- The second weight matrix is loaded whole. -/
theorem w2_block (c : Dev nD) (t : Fin cfg0.N) (k q : Fin 128) :
    (iblk0 V c 3 t : Vec Ideal S128x128 .bf16) (ix2 k q) = (V c main_v29 : S128x128.Idx → EReal) (ix2 k q) := by
  obtain ⟨-, -, -, -, -, h0, h1, -⟩ := index_facts t
  unfold iblk0
  rw [View.read_apply]
  show V c main_v29 _ = V c main_v29 _
  congr 1
  funext a
  apply Fin.ext
  match a with
  | ⟨0, _⟩ => show win0_3.index t (0 : Fin 2) * 128 + 1 * k.val = k.val; rw [h0]; omega
  | ⟨1, _⟩ => show win0_3.index t (1 : Fin 2) * 128 + 1 * q.val = q.val; rw [h1]; omega

/-- The second bias row is loaded whole. -/
theorem b2_block (c : Dev nD) (t : Fin cfg0.N) (q : Fin 128) :
    (iblk0 V c 4 t : Vec Ideal S128 .f32) (ix1 q) = (V c main_arg5 : S128.Idx → EReal) (ix1 q) := by
  obtain ⟨-, -, -, -, -, -, -, h0, -⟩ := index_facts t
  unfold iblk0
  rw [View.read_apply]
  show V c main_arg5 _ = V c main_arg5 _
  congr 1
  funext a
  apply Fin.ext
  match a with
  | ⟨0, _⟩ => show win0_4.index t (0 : Fin 1) * 128 + 1 * q.val = q.val; rw [h0]; omega

/-- Row `p` of point `t`'s scale block is row `5000·t + p` of the scale column. -/
theorem a_block (c : Dev nD) (t : Fin cfg0.N) (p : Fin 5000) (e : Fin 640000) (he : e.val = t.val * 5000 + p.val) :
    (iblk0 V c 5 t : Vec Ideal S5000x1 .f32) (ix2 p (0 : Fin 1)) = (V c main_v30 : S640000x1.Idx → EReal) (ix2 e (0 : Fin 1)) := by
  obtain ⟨-, -, -, -, -, -, -, -, h0, h1, -⟩ := index_facts t
  unfold iblk0
  rw [View.read_apply]
  show V c main_v30 _ = V c main_v30 _
  congr 1
  funext a
  apply Fin.ext
  match a with
  | ⟨0, _⟩ => show win0_5.index t (0 : Fin 2) * 5000 + 1 * p.val = e.val; rw [h0, he]; omega
  | ⟨1, _⟩ => show win0_5.index t (1 : Fin 2) * 1 + 1 * 0 = 0; rw [h1]

/-- Entry `(p, q)` of point `t`'s output block lies at row `5000·t + p`, column `q` of the output array. -/
theorem out_emb (t : Fin cfg0.N) (p : Fin 5000) (q : Fin 128) (e : Fin 640000) (he : e.val = t.val * 5000 + p.val) :
    ((cfg0.win 6).blk t).view.emb (ix2 p q : S5000x128.Idx) = (ix2 e q : S640000x128.Idx) := by
  obtain ⟨-, -, -, -, -, -, -, -, -, -, h0, h1⟩ := index_facts t
  funext a
  apply Fin.ext
  match a with
  | ⟨0, _⟩ => show win0_6.index t (0 : Fin 2) * 5000 + 1 * p.val = e.val; rw [h0, he]; omega
  | ⟨1, _⟩ => show win0_6.index t (1 : Fin 2) * 128 + 1 * q.val = q.val; rw [h1]; omega

/-! ## What each point writes back, and the array the region leaves -/

/-- The specified message at row `e`, column `q`, written out. -/
theorem messages_at (zj : S640000x128.Idx → EReal) (w1t : S128x128.Idx → EReal) (b1 : S128.Idx → EReal)
    (w2t : S128x128.Idx → EReal) (b2 : S128.Idx → EReal) (a : S640000x1.Idx → EReal) (e : Fin 640000) (q : Fin 128) :
    Cert.Gnn.messages zj w1t b1 w2t b2 a (ix2 e q)
      = ((∑ k : Fin 128, max ((∑ i : Fin 128, zj (ix2 e i) * w1t (ix2 i k)) + b1 (ix1 k)) 0 * w2t (ix2 k q)) + b2 (ix1 q))
          * a (ix2 e (0 : Fin 1)) := rfl

/-- Point `t` writes back rows `5000·t … 5000·t + 4999` of the specified messages. -/
theorem flushed_eq (c : Dev nD) (t : Fin cfg0.N) :
    (dat0 (F := Ideal) V c).flushed 6 t = ((cfg0.win 6).blk t).view.read (Elt Ideal)
      (Cert.Gnn.messages (V c main_v25) (V c main_v27) (V c main_arg3) (V c main_v29) (V c main_arg5) (V c main_v30)) := by
  show (cfg0.win 6).cut (grid0.coords t) ((dat0 (F := Ideal) V c).after 6 t) = _
  rw [after0_6]
  unfold out0_6
  rw [View.canon_unit_zero hz2]
  simp only [View.ld_unit_zero (S := S5000x128) hz2, View.ld_unit_zero (S := S128x128) hz2,
    View.ld_unit_zero (S := S128) hz1, View.ld_unit_zero (S := S5000x1) hz2]
  funext y
  obtain ⟨p, q, rfl⟩ : ∃ (p : Fin 5000) (q : Fin 128), y = ix2 p q := ⟨y 0, y 1, eq_ix2 y⟩
  have ht : t.val < 128 := t.isLt.trans_eq N_0
  have hp : p.val < 5000 := p.isLt
  have hlt : t.val * 5000 + p.val < 640000 := by omega
  have he : (⟨t.val * 5000 + p.val, hlt⟩ : Fin 640000).val = t.val * 5000 + p.val := rfl
  show k0_pay1 (F := Ideal) (iblk0 V c 0 t) (iblk0 V c 1 t) (iblk0 V c 2 t) (iblk0 V c 3 t) (iblk0 V c 4 t) (iblk0 V c 5 t) (ix2 p q)
    = Cert.Gnn.messages (V c main_v25) (V c main_v27) (V c main_arg3) (V c main_v29) (V c main_arg5) (V c main_v30)
        (((cfg0.win 6).blk t).view.emb (ix2 p q : S5000x128.Idx))
  rw [out_emb t p q ⟨t.val * 5000 + p.val, hlt⟩ he, messages_at]
  refine (pay_at (iblk0 V c 0 t) (iblk0 V c 1 t) (iblk0 V c 2 t) (iblk0 V c 3 t) (iblk0 V c 4 t) (iblk0 V c 5 t) p q).trans ?_
  exact congrArg₂ (· * ·)
    (congrArg₂ (· + ·)
      (Finset.sum_congr rfl fun k _ => congrArg₂ (· * ·)
        (congrArg (max · 0)
          (congrArg₂ (· + ·)
            (Finset.sum_congr rfl fun i _ => congrArg₂ (· * ·) (zj_block V c t p i _ he) (w1_block V c t i k))
            (b1_block V c t k)))
        (w2_block V c t k q))
      (b2_block V c t q))
    (a_block V c t p _ he)

/-- An index of the output array is in point `t`'s block iff each coordinate is in the block's range on its axis. -/
theorem mem_blk (t : Fin cfg0.N) (i : S640000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v31).slice (win0_6.rect t)).set ↔ _
  rw [View.set_slice_whole, Rect.mem_set_unit]
  exact Iff.rfl

/-- The 128 blocks of 5000 rows tile the 640000 rows: row `r` is in the block of point `r / 5000`. -/
theorem cover (i : S640000x128.Idx) :
    ∃ t : Fin cfg0.N, (cfg0.win 6).flush t = true ∧ i ∈ ((cfg0.win 6).blk t).view.set := by
  have hi0 : (i 0).val < 640000 := (i 0).isLt
  have hi1 : (i 1).val < 128 := (i 1).isLt
  have hN : cfg0.N = 128 := N_0
  obtain ⟨t, ht⟩ : ∃ t : Fin cfg0.N, t.val = (i 0).val / 5000 := ⟨⟨(i 0).val / 5000, by rw [hN]; omega⟩, rfl⟩
  obtain ⟨-, -, -, -, -, -, -, -, -, -, h0, h1⟩ := index_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [h0, ht]; omega
  | ⟨1, _⟩ =>
    show win0_6.index t (1 : Fin 2) * 128 ≤ (i 1).val ∧ (i 1).val < win0_6.index t (1 : Fin 2) * 128 + 128
    rw [h1]; omega

/-- The array the first region leaves in its output window: every edge's scaled message. -/
theorem region0_array (c : Dev nD) :
    (dat0 (F := Ideal) V c).arrAt 6 cfg0.N
      = Cert.Gnn.messages (V c main_v25) (V c main_v27) (V c main_arg3) (V c main_v29) (V c main_arg5) (V c main_v30) :=
  (dat0 (F := Ideal) V c).arrAt_eq_of_cover 6 _ (fun t _ => flushed_eq V c t) cover

end Cert.KernelIdeal.Mlp

end
-- ==== Proof.KernelLn.lean ====
/-
  The second region's output array as one function of the arrays the region finds.
  Point t of the 5 grid points loads rows 4000·t … 4000·t + 3999 of the node features and of the aggregated messages, and
  the gain and offset rows whole; for each of its rows it adds the two, takes the row's mean (the lane sum over 128), centres,
  takes the mean of the centred squares, adds ε, and stores the centred entry times the reciprocal square root, times the gain,
  plus the offset. The 5 blocks tile the 20000 rows, so the array the region leaves is that function at every index.
-/
import proofs.«171261_j38878043964036_1_alg».proof.Proof.Gen.KernelIdeal.Frame
import proofs.«171261_j38878043964036_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Ln

open Cert.KernelIdeal Cert.KernelIdeal.Gen

variable (V : (c : Dev nD) → (b : Ref sig .tc) → Buf (Elt Ideal) ((c : Thread nD τ).loc b))

/-- A vector cast to a one-column matrix reads, at (i, u), the vector at i. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (p, c), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced row index r with lane k put back is (r, k). -/
theorem lift_row (h : S4000x128.Reduces [1] S4000) (r : Fin 4000) (k : Fin 128) :
    h.lift (ix1 r) k = ix2 r k := by
  funext c; apply Fin.ext
  match c with
  | ⟨0, _⟩ => rfl
  | ⟨1, _⟩ => rfl

/-- The lane sum of a block, at row r, is the sum of that row's 128 entries. -/
theorem laneSum_apply (src : FVec Ideal S4000x128 .f32) (a : Fin S4000x128.rank) (acc : BitVec FTy.f32.bits)
    (h : S4000x128.Reduces [a] S4000) (hφ : FKind.Formats .f32) (hacc : acc = FKind.add.neutral .f32 hφ) (r : Fin 4000) :
    multiReduction .add [a] S4000 src acc h hφ hacc (ix1 r) = ∑ k : Fin 128, src (ix2 r k) := by
  obtain rfl : a = (1 : Fin 2) := by
    revert h
    fin_cases a
    · intro h; exact absurd h (by decide)
    · intro _; rfl
  exact (Ideal.multiReduction_add_single src acc h hφ hacc (ix1 r)).trans
    (Finset.sum_congr rfl fun k _ => congrArg src (lift_row h r k))

/-- A reciprocal square root at an index is the element's. -/
theorem rsqrt_apply {s : Shape} {φ : FTy} (a : FVec Ideal s φ) (i : s.Idx) : rsqrt a i = Ideal.rsqrt (a i) := rfl

/-! ## The body's value, piece by piece -/

/-- The block of residual rows: the node block plus the aggregated block. -/
def resid (x0 x1 : Vec Ideal S4000x128 .f32) : FVec Ideal S4000x128 .f32 :=
  addf x0 (shapeCast S4000x128 x1 shapeCasts_S4000x128_S4000x128)

/-- The column of lane means of a block: each row's sum over its 128 lanes, divided by 128. -/
def meanCol (v : FVec Ideal S4000x128 .f32) : FVec Ideal S4000x1 .f32 :=
  divf (shapeCast S4000x1 (multiReduction .add [1] S4000 v 0x00000000#32 reduces_S4000x128_S4000 (.inl rfl) rfl)
      shapeCasts_S4000_S4000x1)
    (broadcast S4000x1 (Scalar.ofBits .f32 0x43000000#32))

/-- A block with each row's mean taken off. -/
def centredBlk (v : FVec Ideal S4000x128 .f32) : FVec Ideal S4000x128 .f32 :=
  subf v (broadcastTo S4000x128 (meanCol v) broadcasts_S4000x1_S4000x128)

/-- The column of reciprocal square roots of (mean square of a centred block's rows, plus ε). -/
def scaleCol (w : FVec Ideal S4000x128 .f32) : FVec Ideal S4000x1 .f32 :=
  rsqrt (addf (meanCol (mulf w w)) (broadcast S4000x1 (Scalar.ofBits .f32 0x3727C5AC#32)))

/-- The body's stored value is: centred residual, times the scale column, times the gain row, plus the offset row. -/
theorem pay_eq (x0 x1 : Vec Ideal S4000x128 .f32) (g b : Vec Ideal S128 .f32) :
    k1_pay1 x0 x1 g b
      = addf (mulf (mulf (centredBlk (resid x0 x1))
                (broadcastTo S4000x128 (scaleCol (centredBlk (resid x0 x1))) broadcasts_S4000x1_S4000x128))
              (broadcastTo S4000x128 (shapeCast S1x128 g shapeCasts_S128_S1x128) broadcasts_S1x128_S4000x128))
          (broadcastTo S4000x128 (shapeCast S1x128 b shapeCasts_S128_S1x128) broadcasts_S1x128_S4000x128) := rfl

theorem resid_apply (x0 x1 : Vec Ideal S4000x128 .f32) (j : S4000x128.Idx) : resid x0 x1 j = x0 j + x1 j := by
  unfold resid
  rw [shapeCast_self]
  rfl

theorem meanCol_apply (v : FVec Ideal S4000x128 .f32) (p : Fin 4000) (u : Fin 1) :
    meanCol v (ix2 p u) = Ideal.div (∑ k : Fin 128, v (ix2 p k)) Cert.Gnn.c128 :=
  congrArg (fun s : EReal => Ideal.div s Cert.Gnn.c128)
    ((shapeCast_col_apply _ shapeCasts_S4000_S4000x1 p u).trans (laneSum_apply v 1 _ _ _ _ p))

theorem centredBlk_apply (v : FVec Ideal S4000x128 .f32) (p : Fin 4000) (q : Fin 128) :
    centredBlk v (ix2 p q) = v (ix2 p q) - Ideal.div (∑ k : Fin 128, v (ix2 p k)) Cert.Gnn.c128 :=
  congrArg (fun s : EReal => v (ix2 p q) - s)
    ((broadcastTo_col_apply (meanCol v) broadcasts_S4000x1_S4000x128 p q).trans (meanCol_apply v p 0))

theorem scaleCol_apply (w : FVec Ideal S4000x128 .f32) (p : Fin 4000) (u : Fin 1) :
    scaleCol w (ix2 p u)
      = Ideal.rsqrt (Ideal.div (∑ k : Fin 128, w (ix2 p k) * w (ix2 p k)) Cert.Gnn.c128 + Cert.Gnn.ceps) :=
  congrArg (fun s : EReal => Ideal.rsqrt (s + Cert.Gnn.ceps)) (meanCol_apply (mulf w w) p u)

/-- One entry of the body's stored value: the normalised residual row of the loaded blocks. -/
theorem pay_apply (x0 x1 : Vec Ideal S4000x128 .f32) (g b : Vec Ideal S128 .f32) (p : Fin 4000) (q : Fin 128) :
    k1_pay1 x0 x1 g b (ix2 p q)
      = Cert.Gnn.rowNormMul (fun k : Fin 128 => x0 (ix2 p k) + x1 (ix2 p k)) (g (ix1 q)) (b (ix1 q)) q := by
  rw [pay_eq]
  show centredBlk (resid x0 x1) (ix2 p q)
        * broadcastTo S4000x128 (scaleCol (centredBlk (resid x0 x1))) broadcasts_S4000x1_S4000x128 (ix2 p q)
        * broadcastTo S4000x128 (shapeCast S1x128 g shapeCasts_S128_S1x128) broadcasts_S1x128_S4000x128 (ix2 p q)
      + broadcastTo S4000x128 (shapeCast S1x128 b shapeCasts_S128_S1x128) broadcasts_S1x128_S4000x128 (ix2 p q) = _
  rw [broadcastTo_col_apply, broadcastTo_1b_ab_apply, broadcastTo_1b_ab_apply, shapeCast_a_1a_apply, shapeCast_a_1a_apply,
    scaleCol_apply]
  simp only [centredBlk_apply, resid_apply]
  rfl

theorem zeros2 : (![0, 0] : Fin 2 → Nat) = fun _ => 0 := funext fun a => by fin_cases a <;> rfl
theorem zeros1 : (![0] : Fin 1 → Nat) = fun _ => 0 := funext fun a => by fin_cases a <;> rfl

/-- Where point t's blocks sit: the two row-blocked inputs and the output at block row t, the gain and offset rows whole. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0
    ∧ win1_4.index t (0 : Fin 2) = t.val ∧ win1_4.index t (1 : Fin 2) = 0 :=
  (by decide +kernel : ∀ t : Fin grid1.N, _)

/-- One entry of a point's stored block, when its loaded blocks are rows 4000·n … of the arrays and the two rows whole:
    the normalised residual row of the arrays at the array index over the block index. -/
theorem block_point (A0 A1 : S20000x128.Idx → EReal) (Ag Ab : S128.Idx → EReal)
    (x0 x1 : Vec Ideal S4000x128 .f32) (g b : Vec Ideal S128 .f32) (n : ℕ)
    (h0 : ∀ (y : S4000x128.Idx) (i : S20000x128.Idx), (i 0).val = n * 4000 + (y 0).val → (i 1).val = (y 1).val → x0 y = A0 i)
    (h1 : ∀ (y : S4000x128.Idx) (i : S20000x128.Idx), (i 0).val = n * 4000 + (y 0).val → (i 1).val = (y 1).val → x1 y = A1 i)
    (hg : g = Ag) (hb : b = Ab)
    (y : S4000x128.Idx) (i : S20000x128.Idx) (hi0 : (i 0).val = n * 4000 + (y 0).val) (hi1 : (i 1).val = (y 1).val) :
    k1_pay1 x0 x1 g b y = Cert.Gnn.normMul A0 A1 Ag Ab i := by
  obtain ⟨p, q, rfl⟩ : ∃ (p : Fin 4000) (q : Fin 128), y = ix2 p q := ⟨y 0, y 1, eq_ix2 y⟩
  obtain ⟨r, s, rfl⟩ : ∃ (r : Fin 20000) (s : Fin 128), i = ix2 r s := ⟨i 0, i 1, eq_ix2 i⟩
  have hr : r.val = n * 4000 + p.val := hi0
  obtain rfl : s = q := Fin.ext hi1
  subst hg hb
  rw [pay_apply]
  show _ = Cert.Gnn.rowNormMul (fun k : Fin 128 => A0 (ix2 r k) + A1 (ix2 r k)) (g (ix1 s)) (b (ix1 s)) s
  have hrow : (fun k : Fin 128 => x0 (ix2 p k) + x1 (ix2 p k)) = fun k : Fin 128 => A0 (ix2 r k) + A1 (ix2 r k) :=
    funext fun k => by rw [h0 (ix2 p k) (ix2 r k) hr rfl, h1 (ix2 p k) (ix2 r k) hr rfl]
  rw [hrow]

/-- What point t writes back is block t of the normalised array. -/
theorem flushed_eq (c : Dev nD) (t : Fin cfg1.N) :
    (dat1 (F := Ideal) V c).flushed 4 t
      = ((cfg1.win 4).blk t).view.read (Elt Ideal)
          (Cert.Gnn.normMul (V c main_arg0) (V c main_v34) (V c main_arg6) (V c main_arg7)) := by
  show (cfg1.win 4).cut (grid1.coords t) ((dat1 V c).after 4 t) = _
  rw [after1_4]
  unfold out1_4
  rw [View.canon_unit_zero zeros2]
  simp only [View.ld_unit_zero (S := S4000x128) zeros2, View.ld_unit_zero (S := S128) zeros1]
  obtain ⟨e00, e01, e10, e11, e2, e3, e40, e41⟩ := blockIndex t
  funext j
  show k1_pay1 (iblk1 V c 0 t) (iblk1 V c 1 t) (iblk1 V c 2 t) (iblk1 V c 3 t) j
    = Cert.Gnn.normMul (V c main_arg0) (V c main_v34) (V c main_arg6) (V c main_arg7) (((cfg1.win 4).blk t).view.emb j)
  refine block_point (V c main_arg0) (V c main_v34) (V c main_arg6) (V c main_arg7) _ _ _ _ t.val ?_ ?_ ?_ ?_ j _ ?_ ?_
  · intro y i h0 h1
    show (V c main_arg0 : S20000x128.Idx → EReal) (((cfg1.win 0).blk t).view.emb y) = _
    refine congrArg _ (funext fun a => Fin.ext ?_)
    match a with
    | ⟨0, _⟩ => show win1_0.index t (0 : Fin 2) * 4000 + 1 * (y 0).val = (i 0).val; omega
    | ⟨1, _⟩ => show win1_0.index t (1 : Fin 2) * 128 + 1 * (y 1).val = (i 1).val; omega
  · intro y i h0 h1
    show (V c main_v34 : S20000x128.Idx → EReal) (((cfg1.win 1).blk t).view.emb y) = _
    refine congrArg _ (funext fun a => Fin.ext ?_)
    match a with
    | ⟨0, _⟩ => show win1_1.index t (0 : Fin 2) * 4000 + 1 * (y 0).val = (i 0).val; omega
    | ⟨1, _⟩ => show win1_1.index t (1 : Fin 2) * 128 + 1 * (y 1).val = (i 1).val; omega
  · funext y
    show (V c main_arg6 : S128.Idx → EReal) (((cfg1.win 2).blk t).view.emb y) = _
    refine congrArg _ (funext fun a => Fin.ext ?_)
    match a with
    | ⟨0, _⟩ => show win1_2.index t (0 : Fin 1) * 128 + 1 * (y 0).val = (y 0).val; omega
  · funext y
    show (V c main_arg7 : S128.Idx → EReal) (((cfg1.win 3).blk t).view.emb y) = _
    refine congrArg _ (funext fun a => Fin.ext ?_)
    match a with
    | ⟨0, _⟩ => show win1_3.index t (0 : Fin 1) * 128 + 1 * (y 0).val = (y 0).val; omega
  · show win1_4.index t (0 : Fin 2) * 4000 + 1 * (j 0).val = t.val * 4000 + (j 0).val; omega
  · show win1_4.index t (1 : Fin 2) * 128 + 1 * (j 1).val = (j 1).val; omega

/-- An index of the array is in point t's block iff each coordinate is in the block's range on its axis. -/
theorem mem_block (t : Fin cfg1.N) (i : S20000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v35).slice (win1_4.rect t)).set ↔ _
  rw [View.set_slice_whole, Rect.mem_set_unit]
  exact Iff.rfl

/-- Every index of the array is in some point's block: row r is in block r / 4000. -/
theorem cover (i : S20000x128.Idx) :
    ∃ t : Fin cfg1.N, (cfg1.win 4).flush t = true ∧ i ∈ ((cfg1.win 4).blk t).view.set := by
  have hi0 : (i 0).val < 20000 := (i 0).isLt
  have hi1 : (i 1).val < 128 := (i 1).isLt
  have hN : cfg1.N = 5 := N_1
  obtain ⟨t, ht⟩ : ∃ t : Fin cfg1.N, t.val = (i 0).val / 4000 := ⟨⟨(i 0).val / 4000, by omega⟩, rfl⟩
  refine ⟨t, flush1_4 t, ?_⟩
  rw [mem_block]
  obtain ⟨-, -, -, -, -, -, e40, e41⟩ := blockIndex t
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 128 ≤ (i 1).val ∧ (i 1).val < win1_4.index t (1 : Fin 2) * 128 + 128
    omega

/-- The array the second region leaves in its output window: each residual row normalised, product form. -/
theorem region1_array (c : Dev nD) :
    (dat1 (F := Ideal) V c).arrAt 4 cfg1.N
      = Cert.Gnn.normMul (V c main_arg0) (V c main_v34) (V c main_arg6) (V c main_arg7) :=
  (dat1 (F := Ideal) V c).arrAt_eq_of_cover 4 _ (fun t _ => flushed_eq V c t) cover

end Cert.KernelIdeal.Ln

end
-- ==== Proof.KernelValue.lean ====
/-
  The kernel program's two results as terms of its launch arguments.
  The first result's buffer is the second region's output array: each row of (features + aggregate) normalised, where the
  aggregate is the first region's output array — every edge's scaled message — scatter-added at row 0's nodes, and the
  first region read the gathered source rows, the two transposed weight matrices, the bias rows and the edge scale as a
  column. The second result is the edge scale itself.
-/
import proofs.«171261_j38878043964036_1_alg».proof.Proof.KernelRun
import proofs.«171261_j38878043964036_1_alg».proof.Proof.KernelHost
import proofs.«171261_j38878043964036_1_alg».proof.Proof.KernelMlp
import proofs.«171261_j38878043964036_1_alg».proof.Proof.KernelLn

set_option maxRecDepth 16384

noncomputable section

open Idealize.ShloMosaic Idealize.ShloMosaic.TcCoe Idealize.SL.Sem

namespace Cert.KernelIdeal.Value

open Cert.KernelIdeal Cert.KernelIdeal.Gen Cert.KernelIdeal.HostVals

/-- The first result as a term of the arguments. -/
def out (z : Reals S20000x128) (ei : Ints S2x640000) (W1 : Reals S128x128) (b1 : Reals S128) (W2 : Reals S128x128) (b2 : Reals S128)
    (g b : Reals S128) : Reals S20000x128 :=
  Cert.Gnn.normMul z
    (aggregatedOf ei (Cert.Gnn.messages (gathered z ei) (narrowed W1) b1 (narrowed W2) b2 (scaleColumn ei))) g b

variable (m : (ℓ : Loc nD τ sig) → Buf (Elt Ideal) ℓ) (ρ : Dev nD → PrngReg)

/-- The last boundary's contents at the first result's buffer. -/
theorem out_eq (c : Dev nD) :
    W4 (F := Ideal) m ρ c (Proc.devRef .tc main_v35)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [final_out m ρ c, Cert.KernelIdeal.Ln.region1_array (V3 m ρ) c, entry1_z m ρ c, entry1_agg m ρ c, entry1_gain m ρ c,
    entry1_offset m ρ c, Cert.KernelIdeal.Mlp.region0_array (V1 m ρ) c, entry0_gathered m ρ c, entry0_w1 m ρ c, entry0_b1 m ρ c,
    entry0_w2 m ρ c, entry0_b2 m ρ c, entry0_scale m ρ c]
  rfl

/-- Every weakly fair execution of the kernel program terminates, nothing faulting, with the two results at their terms
    of the launch arguments and the arguments as launched. -/
theorem run : θ_run (defs (F := Ideal)) (onTc (τ := τ) (main (F := Ideal))) ⟨m, fun _ => 0, ρ⟩ fun r => ∀ c : Dev nD,
      r.2.mem ((c.tc : Thread nD τ).loc main_v35)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v18) = alpha (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun r h c => ⟨(h c).1.trans (out_eq m ρ c), (h c).2.1.trans (final_scale m ρ c), (h c).2.2⟩)
    (Cert.KernelIdeal.ValueRun.run (F := Ideal) m ρ)

end Cert.KernelIdeal.Value

end
-- ==== Proof.RefTerm.lean ====
/-
  The reference's result arrays as terms of its argument arrays: the host operations of its @main composed in the order
  the program applies them, cut into named stages — an edge list's two endpoint rows, a negative index wrapped by the
  node count, the out-degree by a scatter-add of ones, the edge scale 1 / (degree + 1e-12), the gathered source rows,
  one dense layer (a product with the transposed weights plus the bias row), the rectifier, the scaled messages, their
  scatter-add into the nodes, the residual, a row's mean as a column, a row's variance as a column (the divisor
  128 − 0 computed and tested positive as the program does), and the normalised rows with gain and offset.
-/
import proofs.«171261_j38878043964036_1_alg».proof.Proof.Gen.ReferenceIdeal
import Idealize.ShloMosaic.PureOps.Ideal

noncomputable section

namespace Cert.ReferenceIdeal.Term

open Idealize.ShloMosaic Cert.ReferenceIdeal Cert.ReferenceIdeal.Facts₀

abbrev Ints (s : Shape) : Type := IVec s 32
abbrev Reals (s : Shape) : Type := FVec Ideal s .f32

/-- Row 0 of the edge list, flattened. -/
def endpoint0 (ei : Ints S2x640000) : Ints S640000 :=
  fun i => shapeCast S640000 (extractStridedSlice S1x640000 ![0, 0] ei slices_S2x640000_S1x640000_0_0) shapeCasts_S1x640000_S640000 i
/-- Row 1 of the edge list, flattened. -/
def endpoint1 (ei : Ints S2x640000) : Ints S640000 :=
  fun i => shapeCast S640000 (extractStridedSlice S1x640000 ![1, 0] ei slices_S2x640000_S1x640000_1_0) shapeCasts_S1x640000_S640000 i
/-- A negative node index wrapped by the node count. -/
def wrapped (i : Ints S640000) : Ints S640000 :=
  select (cmpi .slt i (broadcastInDim S640000 ![] bcast_S_S640000 (constantI S_ 32 0#32)))
    (addi i (broadcastInDim S640000 ![] bcast_S_S640000 (constantI S_ 32 20000#32))) i
/-- An index vector as a column of start indices. -/
def asColumn (i : Ints S640000) : Ints S640000x1 := broadcastInDim S640000x1 ![0] bcast_S640000_S640000x1_0 i
/-- Out-degrees: ones scatter-added at row 0's nodes. -/
def degree (ei : Ints S2x640000) : Reals S20000 :=
  Host.scatterAdd scatter_S20000_S640000x1_S640000_n_0_0_1
    (broadcastInDim S20000 ![] bcast_S_S20000 (constant S_ .f32 0x00000000#32))
    (asColumn (endpoint0 ei))
    (broadcastInDim S640000 ![] bcast_S_S640000 (constant S_ .f32 0x3F800000#32))
/-- The edge scale: one over (the degree of the edge's row-0 node plus 1e-12). -/
def alpha (ei : Ints S2x640000) : Reals S640000 :=
  Host.divf (broadcastInDim S640000 ![] bcast_S_S640000 (constant S_ .f32 0x3F800000#32))
    (addf (Host.gather gather_S20000_S640000x1_S640000_n_0_n_n_0_1_1 (degree ei) (asColumn (wrapped (endpoint0 ei))))
      (broadcastInDim S640000 ![] bcast_S_S640000 (constant S_ .f32 0x2B8CBCCC#32)))
/-- The feature rows of the edges' row-1 nodes. -/
def gathered (z : Reals S20000x128) (ei : Ints S2x640000) : Reals S640000x128 :=
  Host.gather gather_S20000x128_S640000x1_S640000x128_1_0_n_n_0_1_1128 z (asColumn (wrapped (endpoint1 ei)))
/-- The weights transposed. -/
def transposed (W : Reals S128x128) : Reals S128x128 := transpose S128x128 [1, 0] W transposes_S128x128_S128x128_1_0
/-- A bias row spread over the edges. -/
def biasRows (b : Reals S128) : Reals S640000x128 :=
  broadcastInDim S640000x128 ![0, 1] bcast_S1x128_S640000x128_0_1 (broadcastInDim S1x128 ![1] bcast_S128_S1x128_1 b)
/-- One dense layer: rows times the transposed weights, plus the bias. -/
def dense (x : Reals S640000x128) (W : Reals S128x128) (b : Reals S128) : Reals S640000x128 :=
  addf (Host.dotGeneral dot_S640000x128_S128x128_S640000x128_1_0_0_1_n_n none x (transposed W)) (biasRows b)
/-- The rectifier. -/
def rectified (x : Reals S640000x128) : Reals S640000x128 :=
  maximumf x (broadcastInDim S640000x128 ![] bcast_S_S640000x128 (constant S_ .f32 0x00000000#32))
/-- The edge scale spread along each message row. -/
def scaleRows (a : Reals S640000) : Reals S640000x128 :=
  broadcastInDim S640000x128 ![0, 1] bcast_S640000x1_S640000x128_0_1 (broadcastInDim S640000x1 ![0] bcast_S640000_S640000x1_0 a)
/-- The scaled messages. -/
def msgs (z : Reals S20000x128) (ei : Ints S2x640000) (W1 : Reals S128x128) (b1 : Reals S128) (W2 : Reals S128x128) (b2 : Reals S128) :
    Reals S640000x128 :=
  mulf (dense (rectified (dense (gathered z ei) W1 b1)) W2 b2) (scaleRows (alpha ei))
/-- The messages scatter-added at row 0's nodes. -/
def aggregated (z : Reals S20000x128) (ei : Ints S2x640000) (W1 : Reals S128x128) (b1 : Reals S128) (W2 : Reals S128x128) (b2 : Reals S128) :
    Reals S20000x128 :=
  Host.scatterAdd scatter_S20000x128_S640000x1_S640000x128_1_0_0_1
    (broadcastInDim S20000x128 ![] bcast_S_S20000x128 (constant S_ .f32 0x00000000#32))
    (asColumn (endpoint0 ei)) (msgs z ei W1 b1 W2 b2)
/-- A row's sum as a column. -/
def rowSumCol (x : Reals S20000x128) : Reals S20000x1 :=
  broadcastInDim S20000x1 ![0] bcast_S20000_S20000x1_0 (Host.reduceAdd x (constant S_ .f32 0x00000000#32) reducesTo_S20000x128_S20000_d1 h_S_)
/-- A row's mean as a column. -/
def meanCol (x : Reals S20000x128) : Reals S20000x1 :=
  Host.divf (rowSumCol x) (broadcastInDim S20000x1 ![] bcast_S_S20000x1 (constant S_ .f32 0x43000000#32))
/-- A column spread along its rows. -/
def alongRows (v : Reals S20000x1) : Reals S20000x128 := broadcastInDim S20000x128 ![0, 1] bcast_S20000x1_S20000x128_0_1 v
/-- The variance's divisor: 128 minus the (zero) degrees of freedom correction, as a scalar. -/
def divisor : Reals S_ := subf (constant S_ .f32 0x43000000#32) (sitofp .f32 (constantI S_ 32 0#32))
/-- The rows centred on their own mean. -/
def centredRows (x : Reals S20000x128) : Reals S20000x128 := subf x (alongRows (meanCol x))
/-- A row's variance as a column: the mean of the centred squares where the divisor is positive, else the not-a-number word. -/
def varCol (x : Reals S20000x128) : Reals S20000x1 :=
  select (broadcastInDim S20000x1 ![] bcast_S_S20000x1 (cmpf .ogt divisor (constant S_ .f32 0x00000000#32)))
    (Host.divf (rowSumCol (mulf (centredRows x) (centredRows x))) (broadcastInDim S20000x1 ![] bcast_S_S20000x1 divisor))
    (broadcastInDim S20000x1 ![] bcast_S_S20000x1 (id (constant S_ .f32 0x7FC00000#32)))
/-- A gain or offset row spread over the nodes. -/
def nodeRows (g : Reals S128) : Reals S20000x128 :=
  broadcastInDim S20000x128 ![0, 1] bcast_S1x128_S20000x128_0_1 (broadcastInDim S1x128 ![1] bcast_S128_S1x128_1 g)
/-- The normalised rows: centred, divided by the square root of (variance + ε), times the gain, plus the offset. -/
def normalised (x : Reals S20000x128) (g b : Reals S128) : Reals S20000x128 :=
  addf (mulf (Host.divf (centredRows x)
      (alongRows (Host.sqrt (addf (varCol x) (broadcastInDim S20000x1 ![] bcast_S_S20000x1 (constant S_ .f32 0x3727C5AC#32))))))
    (nodeRows g)) (nodeRows b)
/-- The first result: the residual rows normalised. -/
def out (z : Reals S20000x128) (ei : Ints S2x640000) (W1 : Reals S128x128) (b1 : Reals S128) (W2 : Reals S128x128) (b2 : Reals S128)
    (g b : Reals S128) : Reals S20000x128 :=
  normalised (addf z (aggregated z ei W1 b1 W2 b2)) g b

end Cert.ReferenceIdeal.Term

end
-- ==== Proof.RefRun.lean ====
/-
  The reference's run, by hand: its @main is a straight line of host operations once the three outlined functions (the
  rectifier, the variance and the selection inside it) are unfolded at their calls over the calls' own buffers, so every
  weakly fair execution terminates with each buffer at the operations' fold over the launch contents; read at the two
  result buffers that fold is the composed term of the arguments, and no operation writes an argument.
-/
import proofs.«171261_j38878043964036_1_alg».proof.Defs
import proofs.«171261_j38878043964036_1_alg».proof.Proof.Gen.ReferenceIdeal
import proofs.«171261_j38878043964036_1_alg».proof.Proof.RefTerm
import proofs.«171261_j38878043964036_1_alg».proof.Proof.RefOps
import Idealize.ShloMosaic.Lib.StableHlo.Run
import Idealize.ShloMosaic.PureOps.Ideal

noncomputable section

open Idealize.ShloMosaic Idealize.ShloMosaic.TcCoe Idealize.SL.Sem

namespace Cert.ReferenceIdeal.Hand

open Cert.ReferenceIdeal Cert.ReferenceIdeal.Gen

section Line

open Idealize.ShloMosaic.StableHlo

variable {F : FTy → Type} [FloatOps F]

-- ninety-nine binds re-associated: the rewrite under the chain recurses once per statement
set_option maxRecDepth 4096 in
set_option maxHeartbeats 4000000 in
/-- @main is the straight line of the listed operations: its two windows and the three functions' definitions unfolded at
    their calls, both sides are one chain of steps once sequencing is reassociated. -/
theorem main_eq (c : Dev nD) : main (F := F) c = seq ops := by
  simp only [main, main_part0, main_part1, fn_relu.body, fn_var.body, fn_where.body, seq, bind_assoc, pure_bind]

/-- The signature scopes no buffer of the core, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation touches the core's references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., unary_bufs_sub .., ternary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub ..⟩

/-- From any memory with zero counters every weakly fair execution of @main terminates, each buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

section Values

open Idealize.ShloMosaic.StableHlo

/-! What the fold holds at the ten buffers of interest, at the extended reals: each operation's result at its own buffer is
    its function of the contents below it, and at any other buffer what was there, so reading a buffer through the whole
    line composes the functions along the data flow down to the arguments. For the two results that composition is the
    staged term (the scatter-add, the two gathers and the row sums are kept folded: the equation never looks inside them);
    for an argument it is the argument, since no operation writes one. -/

set_option maxRecDepth 8192 in
set_option maxHeartbeats 4000000 in
/-- No operation writes argument 0. -/
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
/-- No operation writes argument 1. -/
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
/-- No operation writes argument 2. -/
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
/-- No operation writes argument 3. -/
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
/-- No operation writes argument 4. -/
theorem arg4_eq (V : Valuation τ sig (Elt Ideal)) :
    after (ops (F := Ideal)) V (main_arg4 : DevRef τ sig) = V (main_arg4 : DevRef τ sig) := by
  after_results_simp

set_option maxRecDepth 8192 in
set_option maxHeartbeats 4000000 in
/-- No operation writes argument 5. -/
theorem arg5_eq (V : Valuation τ sig (Elt Ideal)) :
    after (ops (F := Ideal)) V (main_arg5 : DevRef τ sig) = V (main_arg5 : DevRef τ sig) := by
  after_results_simp

set_option maxRecDepth 8192 in
set_option maxHeartbeats 4000000 in
/-- No operation writes argument 6. -/
theorem arg6_eq (V : Valuation τ sig (Elt Ideal)) :
    after (ops (F := Ideal)) V (main_arg6 : DevRef τ sig) = V (main_arg6 : DevRef τ sig) := by
  after_results_simp

set_option maxRecDepth 8192 in
set_option maxHeartbeats 4000000 in
/-- No operation writes argument 7. -/
theorem arg7_eq (V : Valuation τ sig (Elt Ideal)) :
    after (ops (F := Ideal)) V (main_arg7 : DevRef τ sig) = V (main_arg7 : DevRef τ sig) := by
  after_results_simp

attribute [local irreducible] Host.scatterAdd Host.gather Host.reduceAdd in
set_option maxRecDepth 8192 in
set_option maxHeartbeats 4000000 in
/-- The second result is the edge scale of the edge list. -/
theorem v18_eq (V : Valuation τ sig (Elt Ideal)) :
    after (ops (F := Ideal)) V (main_v18 : DevRef τ sig) = Term.alpha (V (main_arg1 : DevRef τ sig)) := by
  after_results_simp
  rfl

attribute [local irreducible] Host.scatterAdd Host.gather Host.reduceAdd in
set_option maxRecDepth 16384 in
set_option maxHeartbeats 16000000 in
/-- The first result is the normalised residual rows, as a term of the eight arguments. -/
theorem out_eq (V : Valuation τ sig (Elt Ideal)) :
    after (ops (F := Ideal)) V (main_v61 : DevRef τ sig)
      = Term.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

end Values

/-- Every weakly fair execution of the reference terminates, nothing faulting, with the two results at their terms of the
    launch arguments and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61)
          = Term.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v18) = Term.alpha (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v61).trans (out_eq (StableHlo.launchContents m c)),
        (h c main_v18).trans (v18_eq (StableHlo.launchContents m c)),
        (h c main_arg0).trans (arg0_eq (StableHlo.launchContents m c)),
        (h c main_arg1).trans (arg1_eq (StableHlo.launchContents m c)),
        (h c main_arg2).trans (arg2_eq (StableHlo.launchContents m c)),
        (h c main_arg3).trans (arg3_eq (StableHlo.launchContents m c)),
        (h c main_arg4).trans (arg4_eq (StableHlo.launchContents m c)),
        (h c main_arg5).trans (arg5_eq (StableHlo.launchContents m c)),
        (h c main_arg6).trans (arg6_eq (StableHlo.launchContents m c)),
        (h c main_arg7).trans (arg7_eq (StableHlo.launchContents m c))⟩)
    (run_main m ρ)

end Cert.ReferenceIdeal.Hand

end
-- ==== Proof.RefIndex.lean ====
/-
  The reference's stages read at an index: two dense layers with the rectifier between and the edge scale after are the
  message rows; the centred rows over the square root of (variance + ε), with gain and offset, are the quotient form of
  a normalised row. A host matrix product is the sum over its contracted axis, a host row sum is its initial zero plus
  the sum over the row, a broadcast reads its operand at the kept coordinates, and the variance's divisor 128 − 0 is 128
  and positive, so the selection takes the quotient.
-/
import proofs.«171261_j38878043964036_1_alg».proof.Proof.RefTerm
import proofs.«171261_j38878043964036_1_alg».proof.Proof.Spec
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.ReferenceIdeal.Index

open Cert.ReferenceIdeal Cert.ReferenceIdeal.Facts₀ Cert.ReferenceIdeal.Term

/-! ## Broadcasts read at an index -/

/-- A vector as a one-row matrix, read at (0, q), is the vector at q. -/
theorem asRow_apply (v : Reals S128) (q : Fin 128) :
    broadcastInDim S1x128 ![1] bcast_S128_S1x128_1 v (ix2 (0 : Fin 1) q) = v (ix1 q) :=
  broadcastInDim_apply ![1] bcast_S128_S1x128_1 v (ix2 (0 : Fin 1) q) (ix1 q) (fun a => by
    match a with
    | ⟨0, _⟩ => rfl)

/-- A bias row spread over the edges, read at (e, q), is the bias at q. -/
theorem biasRows_apply (b : Reals S128) (e : Fin 640000) (q : Fin 128) : biasRows b (ix2 e q) = b (ix1 q) := by
  unfold biasRows
  refine (broadcastInDim_apply ![0, 1] bcast_S1x128_S640000x128_0_1 _ (ix2 e q) (ix2 (0 : Fin 1) q) (fun a => by
    match a with
    | ⟨0, _⟩ => rfl
    | ⟨1, _⟩ => rfl)).trans ?_
  exact asRow_apply b q

/-- A gain or offset row spread over the nodes, read at (r, q), is the row at q. -/
theorem nodeRows_apply (g : Reals S128) (r : Fin 20000) (q : Fin 128) : nodeRows g (ix2 r q) = g (ix1 q) := by
  unfold nodeRows
  refine (broadcastInDim_apply ![0, 1] bcast_S1x128_S20000x128_0_1 _ (ix2 r q) (ix2 (0 : Fin 1) q) (fun a => by
    match a with
    | ⟨0, _⟩ => rfl
    | ⟨1, _⟩ => rfl)).trans ?_
  exact asRow_apply g q

/-- The edge scale spread along a message row, read at (e, q), is the scale's column at (e, 0). -/
theorem scaleRows_apply (a : Reals S640000) (e : Fin 640000) (q : Fin 128) :
    scaleRows a (ix2 e q) = broadcastInDim S640000x1 ![0] bcast_S640000_S640000x1_0 a (ix2 e (0 : Fin 1)) := by
  unfold scaleRows
  exact broadcastInDim_apply ![0, 1] bcast_S640000x1_S640000x128_0_1 _ (ix2 e q) (ix2 e (0 : Fin 1)) (fun a => by
    match a with
    | ⟨0, _⟩ => rfl
    | ⟨1, _⟩ => rfl)

/-- A column spread along its rows, read at (r, q), is the column at (r, 0). -/
theorem alongRows_apply (v : Reals S20000x1) (r : Fin 20000) (q : Fin 128) : alongRows v (ix2 r q) = v (ix2 r (0 : Fin 1)) := by
  unfold alongRows
  exact broadcastInDim_apply ![0, 1] bcast_S20000x1_S20000x128_0_1 v (ix2 r q) (ix2 r (0 : Fin 1)) (fun a => by
    match a with
    | ⟨0, _⟩ => rfl
    | ⟨1, _⟩ => rfl)

/-- A vector as a column, read at (r, 0), is the vector at r. -/
theorem asCol_apply (v : Reals S20000) (r : Fin 20000) :
    broadcastInDim S20000x1 ![0] bcast_S20000_S20000x1_0 v (ix2 r (0 : Fin 1)) = v (ix1 r) :=
  broadcastInDim_apply ![0] bcast_S20000_S20000x1_0 v (ix2 r (0 : Fin 1)) (ix1 r) (fun a => by
    match a with
    | ⟨0, _⟩ => rfl)

/-! ## The matrix product read at an index -/

/-- The product's operand indices, axis by axis: the left operand reads the result's row and the contracted coordinate,
    the right operand the contracted coordinate and the result's column. -/
theorem lhs_axis0 (i : S640000x128.Idx) (k : dot_S640000x128_S128x128_S640000x128_1_0_0_1_n_n.contr.Idx) :
    (dot_S640000x128_S128x128_S640000x128_1_0_0_1_n_n.lhsIdx i k 0).val = (i 0).val := by
  unfold DotDims.lhsIdx
  rw [dif_neg (show ¬(0 : Fin S640000x128.rank) ∈ dot_S640000x128_S128x128_S640000x128_1_0_0_1_n_n.lhsBatch by decide),
    dif_pos (show (0 : Fin S640000x128.rank) ∈ dot_S640000x128_S128x128_S640000x128_1_0_0_1_n_n.lhsNonContracting by decide)]
  rfl

theorem lhs_axis1 (i : S640000x128.Idx) (k : dot_S640000x128_S128x128_S640000x128_1_0_0_1_n_n.contr.Idx) :
    (dot_S640000x128_S128x128_S640000x128_1_0_0_1_n_n.lhsIdx i k 1).val = (k ⟨0, by decide⟩).val :=
  dot_S640000x128_S128x128_S640000x128_1_0_0_1_n_n.lhsIdx_val_of_single rfl i k

theorem rhs_axis0 (i : S640000x128.Idx) (k : dot_S640000x128_S128x128_S640000x128_1_0_0_1_n_n.contr.Idx) :
    (dot_S640000x128_S128x128_S640000x128_1_0_0_1_n_n.rhsIdx i k 0).val = (k ⟨0, by decide⟩).val :=
  dot_S640000x128_S128x128_S640000x128_1_0_0_1_n_n.rhsIdx_val_of_single rfl i k

theorem rhs_axis1 (i : S640000x128.Idx) (k : dot_S640000x128_S128x128_S640000x128_1_0_0_1_n_n.contr.Idx) :
    (dot_S640000x128_S128x128_S640000x128_1_0_0_1_n_n.rhsIdx i k 1).val = (i 1).val := by
  unfold DotDims.rhsIdx
  rw [dif_neg (show ¬(1 : Fin S128x128.rank) ∈ dot_S640000x128_S128x128_S640000x128_1_0_0_1_n_n.rhsBatch by decide),
    dif_pos (show (1 : Fin S128x128.rank) ∈ dot_S640000x128_S128x128_S640000x128_1_0_0_1_n_n.rhsNonContracting by decide)]
  rfl

/-- The host product of edge rows with a 128 × 128 matrix, at (e, q): the sum over the contracted coordinate. -/
theorem product_apply (x : Reals S640000x128) (w : Reals S128x128) (e : Fin 640000) (q : Fin 128) :
    Host.dotGeneral dot_S640000x128_S128x128_S640000x128_1_0_0_1_n_n none x w (ix2 e q)
      = ∑ k : Fin 128, x (ix2 e k) * w (ix2 k q) := by
  simp only [Host.dotGeneral]
  rw [Ideal.dotGeneral_apply, ← Equiv.sum_comp (contrEquiv1 dot_S640000x128_S128x128_S640000x128_1_0_0_1_n_n 128 rfl rfl).symm]
  refine Finset.sum_congr rfl fun k _ => ?_
  have hk := contrEquiv1_symm_val dot_S640000x128_S128x128_S640000x128_1_0_0_1_n_n 128 rfl rfl k
  have el : dot_S640000x128_S128x128_S640000x128_1_0_0_1_n_n.lhsIdx (ix2 e q)
      ((contrEquiv1 dot_S640000x128_S128x128_S640000x128_1_0_0_1_n_n 128 rfl rfl).symm k) = ix2 e k :=
    funext fun a => Fin.ext (by
      match a with
      | ⟨0, _⟩ => exact lhs_axis0 _ _
      | ⟨1, _⟩ => exact (lhs_axis1 _ _).trans hk)
  have er : dot_S640000x128_S128x128_S640000x128_1_0_0_1_n_n.rhsIdx (ix2 e q)
      ((contrEquiv1 dot_S640000x128_S128x128_S640000x128_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]

/-- One dense layer at (e, q). -/
theorem dense_apply (x : Reals S640000x128) (W : Reals S128x128) (b : Reals S128) (e : Fin 640000) (q : Fin 128) :
    dense x W b (ix2 e q) = (∑ k : Fin 128, x (ix2 e k) * transposed W (ix2 k q)) + b (ix1 q) := by
  unfold dense
  rw [addf_apply, product_apply, biasRows_apply]

/-- The rectifier at an index: the maximum with the real zero. -/
theorem rectified_apply (x : Reals S640000x128) (j : S640000x128.Idx) : rectified x j = max (x j) 0 := by
  unfold rectified
  rw [maximumf_apply, broadcastInDim_scalar_apply, constant_apply, Ideal.ofBits_zero_f32]

/-- Two dense layers around the rectifier, scaled per edge: the message rows. -/
theorem scaled_dense_eq (zj : Reals S640000x128) (W1 : Reals S128x128) (b1 : Reals S128) (W2 : Reals S128x128) (b2 : Reals S128)
    (a : Reals S640000) :
    mulf (dense (rectified (dense zj W1 b1)) W2 b2) (scaleRows a)
      = Cert.Gnn.messages zj (transposed W1) b1 (transposed W2) b2 (broadcastInDim S640000x1 ![0] bcast_S640000_S640000x1_0 a) := by
  funext j
  obtain ⟨e, q, rfl⟩ : ∃ (e : Fin 640000) (q : Fin 128), j = ix2 e q := ⟨j 0, j 1, eq_ix2 j⟩
  rw [mulf_apply, dense_apply, scaleRows_apply]
  show _ = ((∑ k : Fin 128, Cert.Gnn.hidden zj (transposed W1) b1 e k * transposed W2 (ix2 k q)) + b2 (ix1 q))
      * broadcastInDim S640000x1 ![0] bcast_S640000_S640000x1_0 a (ix2 e (0 : Fin 1))
  refine congrArg (fun s => (s + b2 (ix1 q)) * _) (Finset.sum_congr rfl fun k _ => ?_)
  rw [rectified_apply, dense_apply]
  rfl

/-! ## A normalised row -/

/-- A row's sum as a column, at (r, 0): the sum over the row. -/
theorem rowSumCol_apply (x : Reals S20000x128) (r : Fin 20000) :
    rowSumCol x (ix2 r (0 : Fin 1)) = ∑ k : Fin 128, x (ix2 r k) := by
  unfold rowSumCol
  rw [asCol_apply]
  simp only [Host.reduceAdd, Ideal.hostReduceAdd_def]
  rw [Ideal.hostReduceAdd_single reducesTo_S20000x128_S20000_d1 (by decide), constant_apply, Ideal.ofBits_zero_f32, zero_add]
  refine Finset.sum_congr rfl fun k _ => ?_
  exact congrArg x (funext fun a => Fin.ext (by
    match a with
    | ⟨0, _⟩ => rfl
    | ⟨1, _⟩ => rfl))

/-- A row's mean as a column, at (r, 0). -/
theorem meanCol_apply (x : Reals S20000x128) (r : Fin 20000) :
    meanCol x (ix2 r (0 : Fin 1)) = Cert.Gnn.mean (fun k : Fin 128 => x (ix2 r k)) := by
  unfold meanCol Cert.Gnn.mean
  show Ideal.div (rowSumCol x (ix2 r (0 : Fin 1))) (broadcastInDim S20000x1 ![] bcast_S_S20000x1 (constant (F := Ideal) S_ .f32 0x43000000#32) (ix2 r (0 : Fin 1))) = _
  rw [rowSumCol_apply, broadcastInDim_scalar_apply, constant_apply]

/-- The centred rows at (r, q). -/
theorem centredRows_apply (x : Reals S20000x128) (r : Fin 20000) (q : Fin 128) :
    centredRows x (ix2 r q) = Cert.Gnn.centred (fun k : Fin 128 => x (ix2 r k)) q := by
  unfold centredRows Cert.Gnn.centred
  rw [subf_apply, alongRows_apply, meanCol_apply]

/-- The variance's divisor is the word of 128: the correction it subtracts is the integer zero. -/
theorem divisor_apply : divisor ix0 = Cert.Gnn.c128 := by
  unfold divisor
  show Ideal.ofBits .f32 0x43000000#32 - (((0#32 : BitVec 32).toInt : ℝ) : EReal) = _
  simp

/-- The divisor is positive, so its test against zero is the bit one. -/
theorem divisor_test : cmpf .ogt divisor (constant (F := Ideal) S_ .f32 0x00000000#32) ix0 = 1#1 := by
  rw [cmpf_apply, Ideal.cmpf_def, divisor_apply, constant_apply, Ideal.ofBits_zero_f32, Cert.Gnn.c128_eq]
  unfold Ideal.cmp
  have h : (0 : EReal) < ((128 : ℝ) : EReal) := by exact_mod_cast (by norm_num : (0 : ℝ) < 128)
  simp [h]

/-- A row's variance as a column, at (r, 0). -/
theorem varCol_apply (x : Reals S20000x128) (r : Fin 20000) :
    varCol x (ix2 r (0 : Fin 1)) = Cert.Gnn.variance (fun k : Fin 128 => x (ix2 r k)) := by
  unfold varCol Cert.Gnn.variance
  rw [select_apply, broadcastInDim_scalar_apply, divisor_test, select_one]
  show Ideal.div (rowSumCol (mulf (centredRows x) (centredRows x)) (ix2 r (0 : Fin 1)))
      (broadcastInDim S20000x1 ![] bcast_S_S20000x1 divisor (ix2 r (0 : Fin 1))) = _
  rw [rowSumCol_apply, broadcastInDim_scalar_apply, divisor_apply]
  refine congrArg (fun s => Ideal.div s Cert.Gnn.c128) (Finset.sum_congr rfl fun k _ => ?_)
  rw [mulf_apply, centredRows_apply]

/-- The normalised rows are the quotient form, row by row. -/
theorem normalised_eq (x : Reals S20000x128) (g b : Reals S128) :
    normalised x g b = Cert.Gnn.normDiv x g b := by
  funext j
  obtain ⟨r, q, rfl⟩ : ∃ (r : Fin 20000) (q : Fin 128), j = ix2 r q := ⟨j 0, j 1, eq_ix2 j⟩
  unfold normalised
  rw [addf_apply, mulf_apply, nodeRows_apply, nodeRows_apply]
  show Ideal.div (centredRows x (ix2 r q)) (alongRows (Host.sqrt (addf (varCol x)
      (broadcastInDim S20000x1 ![] bcast_S_S20000x1 (constant (F := Ideal) S_ .f32 0x3727C5AC#32)))) (ix2 r q)) * g (ix1 q) + b (ix1 q)
    = Cert.Gnn.rowNormDiv (fun k : Fin 128 => x (ix2 r k)) (g (ix1 q)) (b (ix1 q)) q
  rw [centredRows_apply, alongRows_apply]
  show Ideal.div _ (Ideal.sqrt (varCol x (ix2 r (0 : Fin 1))
      + broadcastInDim S20000x1 ![] bcast_S_S20000x1 (constant (F := Ideal) S_ .f32 0x3727C5AC#32) (ix2 r (0 : Fin 1)))) * _ + _ = _
  rw [varCol_apply, broadcastInDim_scalar_apply, constant_apply]
  rfl

end Cert.ReferenceIdeal.Index

end
-- ==== Proof.Bridge.lean ====
/-
  The two programs' result terms are one function of the arguments.
  The host stages both programs share — the endpoint rows, the wrapped indices, the degrees, the edge scale, the gathered
  rows, the scatter-add — are the same operations on the same arrays. The kernel's first region computes the message rows
  from the transposed weights narrowed (the identity on the extended reals) and from the scale reshaped to a column, the
  reference from the transposed weights and the scale broadcast to a column: a column read at (e, 0) is the scale at e
  either way. The kernel's second region normalises each row with the reciprocal square root, the reference with the square
  root and a quotient: one function, since variance + ε is positive.
-/
import proofs.«171261_j38878043964036_1_alg».proof.Proof.KernelValue
import proofs.«171261_j38878043964036_1_alg».proof.Proof.RefIndex
import Idealize.ShloMosaic.Lib.Pipeline.Value
import Idealize.ShloMosaic.Lib.ValueIdx

noncomputable section

open Idealize.ShloMosaic Idealize.ShloMosaic.ValueIdx

namespace Cert.Bridge

open Cert.KernelIdeal.HostVals

/-- The edge scale is the same term in both programs. -/
theorem alpha_eq (ei : Ints Cert.KernelIdeal.S2x640000) : alpha ei = Cert.ReferenceIdeal.Term.alpha ei := rfl

/-- The gathered rows are the same term in both programs. -/
theorem gathered_eq (z : Reals Cert.KernelIdeal.S20000x128) (ei : Ints Cert.KernelIdeal.S2x640000) :
    gathered z ei = Cert.ReferenceIdeal.Term.gathered z ei := rfl

/-- Narrowing the transposed weights changes no entry. -/
theorem narrowed_eq (W : Reals Cert.KernelIdeal.S128x128) : narrowed W = Cert.ReferenceIdeal.Term.transposed W := rfl

/-- The scale reshaped to a column is the scale broadcast to a column: both read the scale at the row's index. -/
theorem scaleColumn_eq (ei : Ints Cert.KernelIdeal.S2x640000) :
    scaleColumn ei
      = broadcastInDim Cert.ReferenceIdeal.S640000x1 ![0] Cert.ReferenceIdeal.Gen.bcast_S640000_S640000x1_0 (Cert.ReferenceIdeal.Term.alpha ei) := by
  funext j
  have hj1 : (j 1).val = 0 := by have h : (j 1).val < 1 := (j 1).isLt; omega
  have hL : scaleColumn ei j = alpha ei (ix1 (j 0)) := by
    unfold scaleColumn
    refine shapeCast_apply _ _ j (ix1 (j 0)) ?_
    rw [Shape.rowMajor_val_two, Shape.rowMajor_val_one]
    show (j 0).val = (j 0).val * 1 + (j 1).val
    omega
  have hR : broadcastInDim Cert.ReferenceIdeal.S640000x1 ![0] Cert.ReferenceIdeal.Gen.bcast_S640000_S640000x1_0 (Cert.ReferenceIdeal.Term.alpha ei) j
      = Cert.ReferenceIdeal.Term.alpha ei (ix1 (j 0)) := by
    refine broadcastInDim_apply _ _ _ j (ix1 (j 0)) fun a => ?_
    match a with
    | ⟨0, _⟩ =>
      show (j 0).val = if (640000 : Nat) = 1 then 0 else (j 0).val
      rw [if_neg (by decide)]
  rw [hL, hR, alpha_eq]

/-- The messages scatter-added at row 0's nodes: the same operation in both programs. -/
theorem aggregatedOf_eq (ei : Ints Cert.KernelIdeal.S2x640000) (msg : Reals Cert.KernelIdeal.S640000x128) :
    aggregatedOf ei msg
      = Host.scatterAdd Cert.ReferenceIdeal.scatter_S20000x128_S640000x1_S640000x128_1_0_0_1
          (broadcastInDim Cert.ReferenceIdeal.S20000x128 ![] Cert.ReferenceIdeal.Gen.bcast_S_S20000x128 (constant Cert.ReferenceIdeal.S_ .f32 0x00000000#32))
          (Cert.ReferenceIdeal.Term.asColumn (Cert.ReferenceIdeal.Term.endpoint0 ei)) msg := rfl

/-- THE FIRST RESULT: the kernel program's term is the reference's. -/
theorem out_eq (z : Reals Cert.KernelIdeal.S20000x128) (ei : Ints Cert.KernelIdeal.S2x640000) (W1 : Reals Cert.KernelIdeal.S128x128)
    (b1 : Reals Cert.KernelIdeal.S128) (W2 : Reals Cert.KernelIdeal.S128x128) (b2 : Reals Cert.KernelIdeal.S128)
    (g b : Reals Cert.KernelIdeal.S128) :
    Cert.KernelIdeal.Value.out z ei W1 b1 W2 b2 g b = Cert.ReferenceIdeal.Term.out z ei W1 b1 W2 b2 g b := by
  unfold Cert.ReferenceIdeal.Term.out
  rw [Cert.ReferenceIdeal.Index.normalised_eq]
  show _ = Cert.Gnn.normDiv (fun i => z i + Cert.ReferenceIdeal.Term.aggregated z ei W1 b1 W2 b2 i) g b
  rw [Cert.Gnn.normDiv_add]
  unfold Cert.KernelIdeal.Value.out Cert.ReferenceIdeal.Term.aggregated Cert.ReferenceIdeal.Term.msgs
  rw [Cert.ReferenceIdeal.Index.scaled_dense_eq, aggregatedOf_eq, gathered_eq, narrowed_eq, narrowed_eq, scaleColumn_eq]

end Cert.Bridge

end
-- ==== Proof.lean ====
/-
  The certificate: a graph message-passing layer — gather the source rows, a two-layer perceptron on each edge scaled by
  one over the out-degree, scatter-add into the nodes, residual and layer normalisation — as a program of two kernels
  among host operations, against the same layer written with array operations only.
  The three frames: the two kernel programs' by their generated launch over the two regions; the reference's by its run
  with the results dropped. The idealisation rewrote nothing, so what it must preserve is the trivial proposition.
  The equivalence over the extended reals: both programs end with the first result at one function of the arguments —
  the message rows are the same sums on both sides (a narrowing is the identity, a product into a zero accumulator is the
  plain sum), the shared host stages are the same operations, and a row normalised by the reciprocal square root is the row
  normalised by the square root and a quotient because variance + ε is positive — and with the second result at the edge
  scale, the same term in both. No input needs to be finite for any of this: the precondition is not used.
-/
import proofs.«171261_j38878043964036_1_alg».proof.Defs
import proofs.«171261_j38878043964036_1_alg».proof.Proof.Gen.Kernel
import proofs.«171261_j38878043964036_1_alg».proof.Proof.Gen.Kernel.Skeleton
import proofs.«171261_j38878043964036_1_alg».proof.Proof.Gen.Kernel.Launch
import proofs.«171261_j38878043964036_1_alg».proof.Proof.Gen.Kernel.Points
import proofs.«171261_j38878043964036_1_alg».proof.Proof.Gen.Kernel.Frame
import proofs.«171261_j38878043964036_1_alg».proof.Proof.Gen.KernelIdeal
import proofs.«171261_j38878043964036_1_alg».proof.Proof.Gen.KernelIdeal.Skeleton
import proofs.«171261_j38878043964036_1_alg».proof.Proof.Gen.KernelIdeal.Launch
import proofs.«171261_j38878043964036_1_alg».proof.Proof.Gen.KernelIdeal.Points
import proofs.«171261_j38878043964036_1_alg».proof.Proof.Gen.KernelIdeal.Frame
import proofs.«171261_j38878043964036_1_alg».proof.Proof.Gen.ReferenceIdeal
import proofs.«171261_j38878043964036_1_alg».proof.Proof.Gen.Pre_finite_inputs
import proofs.«171261_j38878043964036_1_alg».proof.Proof.KernelValue
import proofs.«171261_j38878043964036_1_alg».proof.Proof.RefRun
import proofs.«171261_j38878043964036_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_reference : Cert.frame_ReferenceIdeal := fun m ρ _ =>
  (θ_run Cert.ReferenceIdeal.defs _ _).mono (fun _ h c => (h c).2.2) (Cert.ReferenceIdeal.Hand.run m ρ)

/-- Both programs run from memories agreeing on the arguments end with equal results. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun _ h c => ?_) (Cert.ReferenceIdeal.Hand.run m' ρ')
  obtain ⟨h0, h1, h2, h3, h4, h5, h6, h7⟩ := hagree c
  refine ⟨(h c).1.trans ?_, (h c).2.1.trans ?_, (h c).2.2⟩
  · rw [h0, h1, h2, h3, h4, h5, h6, h7]
    exact (Cert.Bridge.out_eq _ _ _ _ _ _ _ _).symm
  · rw [h1]
    exact (Cert.Bridge.alpha_eq _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
